-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x300000 : Shape := ⟨2, ![2, 300000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S256x32 : Shape := ⟨2, ![256, 32]⟩
abbrev S32 : Shape := ⟨1, ![32]⟩
abbrev S32x40 : Shape := ⟨2, ![32, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x40 : S_.BroadcastsInDim S32x40 (![] : Fin 0 → Fin S32x40.rank)
  reducesTo_S32x40_S_d0_1 : S32x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S32x40 .f32) (main_arg13 : FVec F S40 .f32) (main_v48 : IVec S_ 1) (main_v49 : FVec F S32x40 .f32) (main_v50 : FVec F S32x40 .f32) : IVec S_ 1 :=
  let main_v51 : IVec S32x40 1 := cmpf .olt main_v49 main_v50
  let main_c_19 : IVec S_ 1 := constantI S_ 1 1#1
  let main_v52 : IVec S_ 1 := (fun x v => Host.reduce IntOp.andi x v reducesTo_S32x40_S_d0_1 h_S_) main_v51 main_c_19
  let main_v53 : IVec S_ 1 := andi main_v48 main_v52
  let main_v54 : FVec F S32x40 .f32 := Host.absf main_arg12
  let main_cst_20 : FVec F S_ .f32 := constant S_ .f32 0x7F800000#32
  let main_v55 : FVec F S32x40 .f32 := broadcastInDim S32x40 ![] bcast_S_S32x40 main_cst_20
  let main_v56 : IVec S32x40 1 := cmpf .olt main_v54 main_v55
  let main_c_21 : IVec S_ 1 := constantI S_ 1 1#1
  let main_v57 : IVec S_ 1 := (fun x v => Host.reduce IntOp.andi x v reducesTo_S32x40_S_d0_1 h_S_) main_v56 main_c_21
  let main_v58 : IVec S_ 1 := andi main_v53 main_v57
  let main_v59 : FVec F S40 .f32 := Host.absf main_arg13
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg8 : FVec F S256x32 .f32) (main_arg9 : FVec F S256x32 .f32) (main_arg10 : FVec F S32 .f32) (main_arg11 : FVec F S32x40 .f32) (main_arg12 : FVec F S32x40 .f32) (main_arg13 : FVec F S40 .f32) (main_v33 : IVec S_ 1) : IVec S_ 1 :=
  let main_v34 : FVec F S256x32 .f32 := Host.absf main_arg8
  let main_cst_12 : FVec F S_ .f32 := constant S_ .f32 0x7F800000#32
  let main_v35 : FVec F S256x32 .f32 := broadcastInDim S256x32 ![] bcast_S_S256x32 main_cst_12
  let main_v36 : IVec S256x32 1 := cmpf .olt main_v34 main_v35
  let main_c_13 : IVec S_ 1 := constantI S_ 1 1#1
  let main_v37 : IVec S_ 1 := (fun x v => Host.reduce IntOp.andi x v reducesTo_S256x32_S_d0_1 h_S_) main_v36 main_c_13
  let main_v38 : IVec S_ 1 := andi main_v33 main_v37
  let main_v39 : FVec F S256x32 .f32 := Host.absf main_arg9
  let main_cst_14 : FVec F S_ .f32 := constant S_ .f32 0x7F800000#32
  let main_v40 : FVec F S256x32 .f32 := broadcastInDim S256x32 ![] bcast_S_S256x32 main_cst_14
  let main_v41 : IVec S256x32 1 := cmpf .olt main_v39 main_v40
  let main_c_15 : IVec S_ 1 := constantI S_ 1 1#1
  let main_v42 : IVec S_ 1 := (fun x v => Host.reduce IntOp.andi x v reducesTo_S256x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x40 .f32 := Host.absf main_arg11
  let main_cst_18 : FVec F S_ .f32 := constant S_ .f32 0x7F800000#32
  let main_v50 : FVec F S32x40 .f32 := broadcastInDim S32x40 ![] bcast_S_S32x40 main_cst_18
  fn_part3 (F := F) main_arg12 main_arg13 main_v48 main_v49 main_v50

def fn_part1 {F : FTy → Type} [FloatOps F] (main_arg5 : FVec F S256x64 .f32) (main_arg6 : FVec F S256x64 .f32) (main_arg7 : FVec F S64 .f32) (main_arg8 : FVec F S256x32 .f32) (main_arg9 : FVec F S256x32 .f32) (main_arg10 : FVec F S32 .f32) (main_arg11 : FVec F S32x40 .f32) (main_arg12 : FVec F S32x40 .f32) (main_arg13 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x256 .f32) (main_arg1 : IVec S2x300000 32) (main_arg2 : FVec F S256x256 .f32) (main_arg3 : FVec F S256x256 .f32) (main_arg4 : FVec F S256 .f32) (main_arg5 : FVec F S256x64 .f32) (main_arg6 : FVec F S256x64 .f32) (main_arg7 : FVec F S64 .f32) (main_arg8 : FVec F S256x32 .f32) (main_arg9 : FVec F S256x32 .f32) (main_arg10 : FVec F S32 .f32) (main_arg11 : FVec F S32x40 .f32) (main_arg12 : FVec F S32x40 .f32) (main_arg13 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_v13 main_v16
-- ==== Kernel.lean ====
abbrev S50000x256 : Shape := ⟨2, ![50000, 256]⟩
abbrev S2x300000 : Shape := ⟨2, ![2, 300000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S256x32 : Shape := ⟨2, ![256, 32]⟩
abbrev S32 : Shape := ⟨1, ![32]⟩
abbrev S32x40 : Shape := ⟨2, ![32, 40]⟩
abbrev S40 : Shape := ⟨1, ![40]⟩
abbrev S1x300000 : Shape := ⟨2, ![1, 300000]⟩
abbrev S300000 : Shape := ⟨1, ![300000]⟩
abbrev S_ : Shape := ⟨0, ![]⟩
abbrev S50000 : Shape := ⟨1, ![50000]⟩
abbrev S300000x1 : Shape := ⟨2, ![300000, 1]⟩
abbrev S50000x1 : Shape := ⟨2, ![50000, 1]⟩
abbrev S300000x256 : Shape := ⟨2, ![300000, 256]⟩
abbrev S1x32 : Shape := ⟨2, ![1, 32]⟩
abbrev S50000x32 : Shape := ⟨2, ![50000, 32]⟩
abbrev S5000x256 : Shape := ⟨2, ![5000, 256]⟩
abbrev S5000x32 : Shape := ⟨2, ![5000, 32]⟩
abbrev S300000x32 : Shape := ⟨2, ![300000, 32]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 65
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x300000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x64, .f32⟩
  | .hbm, ⟨6, _⟩ => ⟨S256x64, .f32⟩
  | .hbm, ⟨7, _⟩ => ⟨S64, .f32⟩
  | .hbm, ⟨8, _⟩ => ⟨S256x32, .f32⟩
  | .hbm, ⟨9, _⟩ => ⟨S256x32, .f32⟩
  | .hbm, ⟨10, _⟩ => ⟨S32, .f32⟩
  | .hbm, ⟨11, _⟩ => ⟨S32x40, .f32⟩
  | .hbm, ⟨12, _⟩ => ⟨S32x40, .f32⟩
  | .hbm, ⟨13, _⟩ => ⟨S40, .f32⟩
  | .hbm, ⟨14, _⟩ => ⟨S1x300000, .i32⟩
  | .hbm, ⟨15, _⟩ => ⟨S300000, .i32⟩
  | .hbm, ⟨16, _⟩ => ⟨S1x300000, .i32⟩
  | .hbm, ⟨17, _⟩ => ⟨S300000, .i32⟩
  | .hbm, ⟨18, _⟩ => ⟨S_, .f32⟩
  | .hbm, ⟨19, _⟩ => ⟨S300000, .f32⟩
  | .hbm, ⟨20, _⟩ => ⟨S_, .f32⟩
  | .hbm, ⟨21, _⟩ => ⟨S50000, .f32⟩
  | .hbm, ⟨22, _⟩ => ⟨S300000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .i32⟩
  | .hbm, ⟨32, _⟩ => ⟨S300000, .i32⟩
  | .hbm, ⟨33, _⟩ => ⟨S300000, .i1⟩
  | .hbm, ⟨34, _⟩ => ⟨S_, .i32⟩
  | .hbm, ⟨35, _⟩ => ⟨S300000, .i32⟩
  | .hbm, ⟨36, _⟩ => ⟨S300000, .i32⟩
  | .hbm, ⟨37, _⟩ => ⟨S300000, .i32⟩
  | .hbm, ⟨38, _⟩ => ⟨S300000x1, .i32⟩
  | .hbm, ⟨39, _⟩ => ⟨S300000x256, .f32⟩
  | .hbm, ⟨40, _⟩ => ⟨S_, .f32⟩
  | .hbm, ⟨41, _⟩ => ⟨S50000x256, .f32⟩
  | .hbm, ⟨42, _⟩ => ⟨S300000x1, .i32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S1x32, .f32⟩
  | .hbm, ⟨47, _⟩ => ⟨S50000x32, .f32⟩
  | .hbm, ⟨48, _⟩ => ⟨S_, .i32⟩
  | .hbm, ⟨49, _⟩ => ⟨S300000, .i32⟩
  | .hbm, ⟨50, _⟩ => ⟨S300000, .i1⟩
  | .hbm, ⟨51, _⟩ => ⟨S_, .i32⟩
  | .hbm, ⟨52, _⟩ => ⟨S300000, .i32⟩
  | .hbm, ⟨53, _⟩ => ⟨S300000, .i32⟩
  | .hbm, ⟨54, _⟩ => ⟨S300000, .i32⟩
  | .hbm, ⟨55, _⟩ => ⟨S300000x1, .i32⟩
  | .hbm, ⟨56, _⟩ => ⟨S300000x32, .f32⟩
  | .hbm, ⟨57, _⟩ => ⟨S_, .f32⟩
  | .hbm, ⟨58, _⟩ => ⟨S50000x32, .f32⟩
  | .hbm, ⟨59, _⟩ => ⟨S300000x1, .i32⟩
  | .hbm, ⟨60, _⟩ => ⟨S50000x32, .f32⟩
  | .hbm, ⟨61, _⟩ => ⟨S50000x32, .f32⟩
  | .hbm, ⟨62, _⟩ => ⟨S50000x32, .f32⟩
  | .hbm, ⟨63, _⟩ => ⟨S1x40, .f32⟩
  | .hbm, ⟨64, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x32, .f32⟩
  | .local _ .vmem, ⟨5, _⟩ => ⟨S256x32, .f32⟩
  | .local _ .vmem, ⟨6, _⟩ => ⟨S1x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32x40, .f32⟩
  | .local _ .vmem, ⟨14, _⟩ => ⟨S32x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S_S50000 : S_.BroadcastsInDim S50000 (![] : Fin 0 → Fin S50000.rank)
  bcast_S300000_S300000x1_0 : S300000.BroadcastsInDim S300000x1 (![0] : Fin 1 → Fin S300000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S32_S1x32 : S32.ShapeCasts S1x32
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  shapeCasts_S40_S1x40 : S40.ShapeCasts S1x40
  shapeCasts_S5000x32_S5000x32 : S5000x32.ShapeCasts S5000x32
  inb_S32x40_S32x40_0_0 : ∀ a, (![0, 0] : Fin 2 → Nat) a + S32x40.size a ≤ S32x40.size a
  h_S32x40 : 0 < S32x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S300000x1_S300000_n_0_0_1_wf : ScatterDims.WF S50000 S300000x1 S300000 [] [0] [0] 1
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S5000x256_S256x32_S5000x32_1_0_0_1_n_n_wf : DotDims.WF S5000x256 S256x32 S5000x32 [1] [0] [0] [1] [] []
  gather_S50000x32_S300000x1_S300000x32_1_0_n_n_0_1_132_wf : GatherDims.WF S50000x32 S300000x1 S300000x32 [1] [0] [] [0] [] 1 ![1, 32]
  scatter_S50000x32_S300000x1_S300000x32_1_0_0_1_wf : ScatterDims.WF S50000x32 S300000x1 S300000x32 [1] [0] [0] 1
  dot_S5000x32_S32x40_S5000x40_1_0_0_1_n_n_wf : DotDims.WF S5000x32 S32x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .f32 = 32 ∨ (Rect.block (s := S50000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S50000x32.size a
  hwx0_5 : ∀ i : grid0.Coords, EltTy.bits .f32 = 32 ∨ (Rect.block (s := S50000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x40.size a ≤ S32x40.size a
  hwx1_2 : ∀ i : grid1.Coords, EltTy.bits .f32 = 32 ∨ (Rect.block (s := S32x40) S32x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x40.size a ≤ S32x40.size a
  hwx1_3 : ∀ i : grid1.Coords, EltTy.bits .f32 = 32 ∨ (Rect.block (s := S32x40) S32x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S50000x40.size a
  hwx1_5 : ∀ i : grid1.Coords, EltTy.bits .f32 = 32 ∨ (Rect.block (s := S50000x40) S5000x40.size (cc1_transform_5 i) (hinb1_5 i)).WholeWords (EltTy.packing .f32)

variable [Facts₀]

def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def gather_S50000x32_S300000x1_S300000x32_1_0_n_n_0_1_132 : GatherDims S50000x32 S300000x1 S300000x32 where
  offsetDims := [1]
  collapsedSliceDims := [0]
  operandBatchingDims := []
  startIndicesBatchingDims := []
  startIndexMap := [0]
  indexVectorDim := 1
  sliceSizes := ![1, 32]
  wf := gather_S50000x32_S300000x1_S300000x32_1_0_n_n_0_1_132_wf
def scatter_S50000x32_S300000x1_S300000x32_1_0_0_1 : ScatterDims S50000x32 S300000x1 S300000x32 where
  updateWindowDims := [1]
  insertedWindowDims := [0]
  scatterDimsToOperandDims := [0]
  indexVectorDim := 1
  wf := scatter_S50000x32_S300000x1_S300000x32_1_0_0_1_wf
def dot_S5000x32_S32x40_S5000x40_1_0_0_1_n_n : DotDims S5000x32 S32x40 S5000x40 where
  lhsContracting := [1]
  rhsContracting := [0]
  lhsNonContracting := [0]
  rhsNonContracting := [1]
  lhsBatch := []
  rhsBatch := []
  wf := dot_S5000x32_S32x40_S5000x40_1_0_0_1_n_n_wf

abbrev win0_0 : Pipeline.Window sig grid0 :=
  Pipeline.Window.ofSpec (Memref.whole main_v24) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S32x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S32x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x300000 : Shape := ⟨2, ![2, 300000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S256x32 : Shape := ⟨2, ![256, 32]⟩
abbrev S32 : Shape := ⟨1, ![32]⟩
abbrev S32x40 : Shape := ⟨2, ![32, 40]⟩
abbrev S40 : Shape := ⟨1, ![40]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S50000 : Shape := ⟨1, ![50000]⟩
abbrev S50000x1 : Shape := ⟨2, ![50000, 1]⟩
abbrev S1x256 : Shape := ⟨2, ![1, 256]⟩
abbrev S50000x64 : Shape := ⟨2, ![50000, 64]⟩
abbrev S1x64 : Shape := ⟨2, ![1, 64]⟩
abbrev S50000x32 : Shape := ⟨2, ![50000, 32]⟩
abbrev S1x32 : Shape := ⟨2, ![1, 32]⟩
abbrev S300000x32 : Shape := ⟨2, ![300000, 32]⟩
abbrev S50000x40 : Shape := ⟨2, ![50000, 40]⟩
abbrev S1x40 : Shape := ⟨2, ![1, 40]⟩

abbrev nBuf : Space → Nat
  | .hbm => 166
  | .vmem => 0
  | .smem => 0
  | _ => 0

abbrev hbmTy0_0 (i : Nat) : BufTy := match i % 128 with
  | 0 => ⟨S50000x256, .f32⟩
  | 1 => ⟨S2x300000, .i32⟩
  | 2 => ⟨S256x256, .f32⟩
  | 3 => ⟨S256x256, .f32⟩
  | 4 => ⟨S256, .f32⟩
  | 5 => ⟨S256x64, .f32⟩
  | 6 => ⟨S256x64, .f32⟩
  | 7 => ⟨S64, .f32⟩
  | 8 => ⟨S256x32, .f32⟩
  | 9 => ⟨S256x32, .f32⟩
  | 10 => ⟨S32, .f32⟩
  | 11 => ⟨S32x40, .f32⟩
  | 12 => ⟨S32x40, .f32⟩
  | 13 => ⟨S40, .f32⟩
  | 14 => ⟨S1x300000, .i32⟩
  | 15 => ⟨S300000, .i32⟩
  | 16 => ⟨S1x300000, .i32⟩
  | 17 => ⟨S300000, .i32⟩
  | 18 => ⟨S_, .i32⟩
  | 19 => ⟨S300000, .i32⟩
  | 20 => ⟨S300000, .i1⟩
  | 21 => ⟨S_, .i32⟩
  | 22 => ⟨S300000, .i32⟩
  | 23 => ⟨S300000, .i32⟩
  | 24 => ⟨S300000, .i32⟩
  | 25 => ⟨S300000x1, .i32⟩
  | 26 => ⟨S300000x256, .f32⟩
  | 27 => ⟨S_, .f32⟩
  | 28 => ⟨S50000x256, .f32⟩
  | 29 => ⟨S300000x1, .i32⟩
  | 30 => ⟨S50000x256, .f32⟩
  | 31 => ⟨S_, .f32⟩
  | 32 => ⟨S300000, .f32⟩
  | 33 => ⟨S_, .f32⟩
  | 34 => ⟨S50000, .f32⟩
  | 35 => ⟨S300000x1, .i32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x256, .f32⟩
  | 42 => ⟨S50000x256, .f32⟩
  | 43 => ⟨S50000x256, .f32⟩
  | 44 => ⟨S50000x256, .f32⟩
  | 45 => ⟨S50000x256, .f32⟩
  | 46 => ⟨S1x256, .f32⟩
  | 47 => ⟨S50000x256, .f32⟩
  | 48 => ⟨S50000x256, .f32⟩
  | 49 => ⟨S_, .f32⟩
  | 50 => ⟨S50000x256, .f32⟩
  | 51 => ⟨S50000x256, .f32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000x256, .f32⟩
  | 61 => ⟨S_, .f32⟩
  | 62 => ⟨S50000x256, .f32⟩
  | 63 => ⟨S300000x1, .i32⟩
  | 64 => ⟨S50000x256, .f32⟩
  | 65 => ⟨S_, .f32⟩
  | 66 => ⟨S300000, .f32⟩
  | 67 => ⟨S_, .f32⟩
  | 68 => ⟨S50000, .f32⟩
  | 69 => ⟨S300000x1, .i32⟩
  | 70 => ⟨S50000, .f32⟩
  | 71 => ⟨S_, .f32⟩
  | 72 => ⟨S50000, .f32⟩
  | 73 => ⟨S50000, .f32⟩
  | 74 => ⟨S50000x1, .f32⟩
  | 75 => ⟨S50000x256, .f32⟩
  | 76 => ⟨S50000x256, .f32⟩
  | 77 => ⟨S50000x64, .f32⟩
  | 78 => ⟨S50000x64, .f32⟩
  | 79 => ⟨S50000x64, .f32⟩
  | 80 => ⟨S1x64, .f32⟩
  | 81 => ⟨S50000x64, .f32⟩
  | 82 => ⟨S50000x64, .f32⟩
  | 83 => ⟨S_, .f32⟩
  | 84 => ⟨S50000x64, .f32⟩
  | 85 => ⟨S50000x64, .f32⟩
  | 86 => ⟨S_, .i32⟩
  | 87 => ⟨S300000, .i32⟩
  | 88 => ⟨S300000, .i1⟩
  | 89 => ⟨S_, .i32⟩
  | 90 => ⟨S300000, .i32⟩
  | 91 => ⟨S300000, .i32⟩
  | 92 => ⟨S300000, .i32⟩
  | 93 => ⟨S300000x1, .i32⟩
  | 94 => ⟨S300000x256, .f32⟩
  | 95 => ⟨S_, .f32⟩
  | 96 => ⟨S50000x256, .f32⟩
  | 97 => ⟨S300000x1, .i32⟩
  | 98 => ⟨S50000x256, .f32⟩
  | 99 => ⟨S_, .f32⟩
  | 100 => ⟨S300000, .f32⟩
  | 101 => ⟨S_, .f32⟩
  | 102 => ⟨S50000, .f32⟩
  | 103 => ⟨S300000x1, .i32⟩
  | 104 => ⟨S50000, .f32⟩
  | 105 => ⟨S_, .f32⟩
  | 106 => ⟨S50000, .f32⟩
  | 107 => ⟨S50000, .f32⟩
  | 108 => ⟨S50000x1, .f32⟩
  | 109 => ⟨S50000x256, .f32⟩
  | 110 => ⟨S50000x256, .f32⟩
  | 111 => ⟨S50000x32, .f32⟩
  | 112 => ⟨S50000x32, .f32⟩
  | 113 => ⟨S50000x32, .f32⟩
  | 114 => ⟨S1x32, .f32⟩
  | 115 => ⟨S50000x32, .f32⟩
  | 116 => ⟨S50000x32, .f32⟩
  | 117 => ⟨S_, .f32⟩
  | 118 => ⟨S50000x32, .f32⟩
  | 119 => ⟨S50000x32, .f32⟩
  | 120 => ⟨S_, .i32⟩
  | 121 => ⟨S300000, .i32⟩
  | 122 => ⟨S300000, .i1⟩
  | 123 => ⟨S_, .i32⟩
  | 124 => ⟨S300000, .i32⟩
  | 125 => ⟨S300000, .i32⟩
  | 126 => ⟨S300000, .i32⟩
  | 127 => ⟨S300000x1, .i32⟩
  | _ => ⟨S50000x256, .f32⟩

abbrev hbmTy0_1 (i : Nat) : BufTy := match i % 128 with
  | 0 => ⟨S300000x32, .f32⟩
  | 1 => ⟨S_, .f32⟩
  | 2 => ⟨S50000x32, .f32⟩
  | 3 => ⟨S300000x1, .i32⟩
  | 4 => ⟨S50000x32, .f32⟩
  | 5 => ⟨S_, .f32⟩
  | 6 => ⟨S300000, .f32⟩
  | 7 => ⟨S_, .f32⟩
  | 8 => ⟨S50000, .f32⟩
  | 9 => ⟨S300000x1, .i32⟩
  | 10 => ⟨S50000, .f32⟩
  | 11 => ⟨S_, .f32⟩
  | 12 => ⟨S50000, .f32⟩
  | 13 => ⟨S50000, .f32⟩
  | 14 => ⟨S50000x1, .f32⟩
  | 15 => ⟨S50000x32, .f32⟩
  | 16 => ⟨S50000x32, .f32⟩
  | 17 => ⟨S50000x40, .f32⟩
  | 18 => ⟨S50000x40, .f32⟩
  | 19 => ⟨S50000x40, .f32⟩
  | 20 => ⟨S1x40, .f32⟩
  | 21 => ⟨S50000x40, .f32⟩
  | 22 => ⟨S50000x40, .f32⟩
  | 23 => ⟨S_, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x40, .f32⟩
  | 30 => ⟨S50000x40, .f32⟩
  | 31 => ⟨S50000x40, .f32⟩
  | 32 => ⟨S_, .f32⟩
  | 33 => ⟨S50000, .f32⟩
  | 34 => ⟨S50000x1, .f32⟩
  | 35 => ⟨S50000x1, .f32⟩
  | 36 => ⟨S50000x40, .f32⟩
  | 37 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_call2_cst : Ref sig .tc := ⟨.hbm, 117, rfl⟩
abbrev main_call2_v0 : Ref sig .tc := ⟨.hbm, 118, rfl⟩
abbrev main_v81 : Ref sig .tc := ⟨.hbm, 119, rfl⟩
abbrev main_c_16 : Ref sig .tc := ⟨.hbm, 120, rfl⟩
abbrev main_v82 : Ref sig .tc := ⟨.hbm, 121, rfl⟩
abbrev main_v83 : Ref sig .tc := ⟨.hbm, 122, rfl⟩
abbrev main_c_17 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_18 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_19 : Ref sig .tc := ⟨.hbm, 133, rfl⟩
abbrev main_v92 : Ref sig .tc := ⟨.hbm, 134, rfl⟩
abbrev main_cst_20 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_21 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_call3_cst : Ref sig .tc := ⟨.hbm, 151, rfl⟩
abbrev main_call3_v0 : Ref sig .tc := ⟨.hbm, 152, rfl⟩
abbrev main_call3_cst_0 : Ref sig .tc := ⟨.hbm, 153, rfl⟩
abbrev main_call3_v1 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_v6 : Ref sig .tc := ⟨.hbm, 159, rfl⟩
abbrev main_call3_cst_1 : Ref sig .tc := ⟨.hbm, 160, rfl⟩
abbrev main_call3_v7 : Ref sig .tc := ⟨.hbm, 161, rfl⟩
abbrev main_call3_v8 : Ref sig .tc := ⟨.hbm, 162, rfl⟩
abbrev main_call3_v9 : Ref sig .tc := ⟨.hbm, 163, rfl⟩
abbrev main_call3_v10 : Ref sig .tc := ⟨.hbm, 164, rfl⟩
abbrev main_v107 : Ref sig .tc := ⟨.hbm, 165, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []
  dot_S50000x256_S256x32_S50000x32_1_0_0_1_n_n_wf : DotDims.WF S50000x256 S256x32 S50000x32 [1] [0] [0] [1] [] []
  gather_S50000x32_S300000x1_S300000x32_1_0_n_n_0_1_132_wf : GatherDims.WF S50000x32 S300000x1 S300000x32 [1] [0] [] [0] [] 1 ![1, 32]
  scatter_S50000x32_S300000x1_S300000x32_1_0_0_1_wf : ScatterDims.WF S50000x32 S300000x1 S300000x32 [1] [0] [0] 1
  dot_S50000x32_S32x40_S50000x40_1_0_0_1_n_n_wf : DotDims.WF S50000x32 S32x40 S50000x40 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S50000x256_S256x32_S50000x32_1_0_0_1_n_n : DotDims S50000x256 S256x32 S50000x32 where
  lhsContracting := [1]
  rhsContracting := [0]
  lhsNonContracting := [0]
  rhsNonContracting := [1]
  lhsBatch := []
  rhsBatch := []
  wf := dot_S50000x256_S256x32_S50000x32_1_0_0_1_n_n_wf
def gather_S50000x32_S300000x1_S300000x32_1_0_n_n_0_1_132 : GatherDims S50000x32 S300000x1 S300000x32 where
  offsetDims := [1]
  collapsedSliceDims := [0]
  operandBatchingDims := []
  startIndicesBatchingDims := []
  startIndexMap := [0]
  indexVectorDim := 1
  sliceSizes := ![1, 32]
  wf := gather_S50000x32_S300000x1_S300000x32_1_0_n_n_0_1_132_wf
def scatter_S50000x32_S300000x1_S300000x32_1_0_0_1 : ScatterDims S50000x32 S300000x1 S300000x32 where
  updateWindowDims := [1]
  insertedWindowDims := [0]
  scatterDimsToOperandDims := [0]
  indexVectorDim := 1
  wf := scatter_S50000x32_S300000x1_S300000x32_1_0_0_1_wf
def dot_S50000x32_S32x40_S50000x40_1_0_0_1_n_n : DotDims S50000x32 S32x40 S50000x40 where
  lhsContracting := [1]
  rhsContracting := [0]
  lhsNonContracting := [0]
  rhsNonContracting := [1]
  lhsBatch := []
  rhsBatch := []
  wf := dot_S50000x32_S32x40_S50000x40_1_0_0_1_n_n_wf

class Facts : Prop extends Facts₀ where

variable [Facts]
-- ==== Proof.HostK.lean ====
/-
  The host side of the kernel's program, read as terms of the argument arrays. Both stretches of host operations do
  the same graph plumbing around a feature matrix `z`: the edges' source nodes `srcCol` (a negative index counted from
  the end, as array indexing does) select rows of `z`; the rows are summed into their destination nodes `dstCol`
  (`agg`); and the sum is multiplied by the reciprocal of the node's in-degree, at least one (`invCol`: the degree is the
  scatter-sum of ones, `cnt`). The first stretch does it to the node features (`mean256`) before the first kernel region,
  the second to the hidden layer that region wrote (`mean32`) before the second; each also reshapes a bias vector to a row.
  What a region's input arrays hold when it is entered is read off the fold of the operations' results.
-/
import proofs.«154788_j64845416235694_1_alg».proof.Proof.Gen.KernelIdeal.Frame

set_option maxRecDepth 16384

noncomputable section

namespace Cert.KernelIdeal.HostK

open Cert.KernelIdeal Cert.KernelIdeal.Gen Idealize.ShloMosaic Idealize.ShloMosaic.TcCoe Idealize.SL.Sem
open Idealize.ShloMosaic.StableHlo

variable {F : FTy → Type} [FloatOps F]

/-! ## The plumbing, named -/

/-- The edges' source nodes. -/
def srcVec (e : (⟨S2x300000, .i32⟩ : BufTy).Contents (Elt F)) : (⟨S300000, .i32⟩ : BufTy).Contents (Elt F) :=
  shapeCast _ (extractStridedSlice S1x300000 ![0, 0] e slices_S2x300000_S1x300000_0_0) shapeCasts_S1x300000_S300000
/-- The edges' destination nodes. -/
def dstVec (e : (⟨S2x300000, .i32⟩ : BufTy).Contents (Elt F)) : (⟨S300000, .i32⟩ : BufTy).Contents (Elt F) :=
  shapeCast _ (extractStridedSlice S1x300000 ![1, 0] e slices_S2x300000_S1x300000_1_0) shapeCasts_S1x300000_S300000
/-- The source nodes as the column of row indices a gather takes, a negative index counted from the end. -/
def srcCol (e : (⟨S2x300000, .i32⟩ : BufTy).Contents (Elt F)) : (⟨S300000x1, .i32⟩ : BufTy).Contents (Elt F) :=
  broadcastInDim S300000x1 ![0] bcast_S300000_S300000x1_0
    (select (cmpi .slt (srcVec (F := F) e) (broadcastInDim S300000 ![] bcast_S_S300000 (constantI S_ 32 0#32)))
      (addi (srcVec (F := F) e) (broadcastInDim S300000 ![] bcast_S_S300000 (constantI S_ 32 50000#32))) (srcVec (F := F) e))
/-- The destination nodes as the column of row indices a scatter takes. -/
def dstCol (e : (⟨S2x300000, .i32⟩ : BufTy).Contents (Elt F)) : (⟨S300000x1, .i32⟩ : BufTy).Contents (Elt F) :=
  broadcastInDim S300000x1 ![0] bcast_S300000_S300000x1_0 (dstVec (F := F) e)
/-- One per node. -/
def ones : (⟨S50000, .f32⟩ : BufTy).Contents (Elt F) :=
  broadcastInDim S50000 ![] bcast_S_S50000 (constant S_ .f32 0x3F800000#32)
/-- A node's in-degree: the scatter-sum of one per edge into its destination. -/
def cnt (e : (⟨S2x300000, .i32⟩ : BufTy).Contents (Elt F)) : (⟨S50000, .f32⟩ : BufTy).Contents (Elt F) :=
  Host.scatterAdd scatter_S50000_S300000x1_S300000_n_0_0_1 (broadcastInDim S50000 ![] bcast_S_S50000 (constant S_ .f32 0x00000000#32))
    (dstCol (F := F) e) (broadcastInDim S300000 ![] bcast_S_S300000 (constant S_ .f32 0x3F800000#32))
/-- The reciprocal of the in-degree, at least one, as a column. -/
def invCol (e : (⟨S2x300000, .i32⟩ : BufTy).Contents (Elt F)) : (⟨S50000x1, .f32⟩ : BufTy).Contents (Elt F) :=
  broadcastInDim S50000x1 ![0] bcast_S50000_S50000x1_0 (Host.divf (ones (F := F)) (maximumf (cnt (F := F) e) (ones (F := F))))
/-- The rows of a [50000, 256] matrix summed into the destination nodes of the edges leaving them. -/
def agg256 (z : (⟨S50000x256, .f32⟩ : BufTy).Contents (Elt F)) (e : (⟨S2x300000, .i32⟩ : BufTy).Contents (Elt F)) :
    (⟨S50000x256, .f32⟩ : BufTy).Contents (Elt F) :=
  Host.scatterAdd scatter_S50000x256_S300000x1_S300000x256_1_0_0_1
    (broadcastInDim S50000x256 ![] bcast_S_S50000x256 (constant S_ .f32 0x00000000#32)) (dstCol (F := F) e)
    (Host.gather gather_S50000x256_S300000x1_S300000x256_1_0_n_n_0_1_1256 z (srcCol (F := F) e))
/-- … times the reciprocal in-degree: the neighbour mean, as the kernel's program spells it. -/
def mean256 (z : (⟨S50000x256, .f32⟩ : BufTy).Contents (Elt F)) (e : (⟨S2x300000, .i32⟩ : BufTy).Contents (Elt F)) :
    (⟨S50000x256, .f32⟩ : BufTy).Contents (Elt F) :=
  mulf (agg256 (F := F) z e) (broadcastInDim S50000x256 ![0, 1] bcast_S50000x1_S50000x256_0_1 (invCol (F := F) e))
/-- The same for a [50000, 32] matrix. -/
def agg32 (z : (⟨S50000x32, .f32⟩ : BufTy).Contents (Elt F)) (e : (⟨S2x300000, .i32⟩ : BufTy).Contents (Elt F)) :
    (⟨S50000x32, .f32⟩ : BufTy).Contents (Elt F) :=
  Host.scatterAdd scatter_S50000x32_S300000x1_S300000x32_1_0_0_1
    (broadcastInDim S50000x32 ![] bcast_S_S50000x32 (constant S_ .f32 0x00000000#32)) (dstCol (F := F) e)
    (Host.gather gather_S50000x32_S300000x1_S300000x32_1_0_n_n_0_1_132 z (srcCol (F := F) e))
def mean32 (z : (⟨S50000x32, .f32⟩ : BufTy).Contents (Elt F)) (e : (⟨S2x300000, .i32⟩ : BufTy).Contents (Elt F)) :
    (⟨S50000x32, .f32⟩ : BufTy).Contents (Elt F) :=
  mulf (agg32 (F := F) z e) (broadcastInDim S50000x32 ![0, 1] bcast_S50000x1_S50000x32_0_1 (invCol (F := F) e))

variable (m : (ℓ : Loc nD τ sig) → Buf (Elt F) ℓ) (ρ : Dev nD → PrngReg)

/-! ## What the first region finds -/

theorem V1_mean (c : Dev nD) : V1 m ρ c main_v24 = mean256 (F := F) (m ((c : Thread nD τ).loc main_arg0)) (m ((c : Thread nD τ).loc main_arg1)) := by
  show StableHlo.after hostOps0 (W0 m ρ c) (Proc.devRef .tc main_v24) = _
  after_results_simp
  rfl
theorem V1_arg0 (c : Dev nD) : V1 m ρ c main_arg0 = (m ((c : Thread nD τ).loc main_arg0)) := by
  show StableHlo.after hostOps0 (W0 m ρ c) (Proc.devRef .tc main_arg0) = _
  after_results_simp
theorem V1_arg8 (c : Dev nD) : V1 m ρ c main_arg8 = (m ((c : Thread nD τ).loc main_arg8)) := by
  show StableHlo.after hostOps0 (W0 m ρ c) (Proc.devRef .tc main_arg8) = _
  after_results_simp
theorem V1_arg9 (c : Dev nD) : V1 m ρ c main_arg9 = (m ((c : Thread nD τ).loc main_arg9)) := by
  show StableHlo.after hostOps0 (W0 m ρ c) (Proc.devRef .tc main_arg9) = _
  after_results_simp
theorem V1_bias (c : Dev nD) : V1 m ρ c main_v25 = shapeCast _ (m ((c : Thread nD τ).loc main_arg10)) shapeCasts_S32_S1x32 := by
  show StableHlo.after hostOps0 (W0 m ρ c) (Proc.devRef .tc main_v25) = _
  after_results_simp
  rfl

/-! ## What the second region finds: the first stretch's values it still reads, through the first region -/

theorem W2_v1 (c : Dev nD) : W2 m ρ c (Proc.devRef .tc main_v1) = srcVec (F := F) (m ((c : Thread nD τ).loc main_arg1)) :=
  (W2_of_ne m ρ c main_v1 (by decide)).trans (by
    show StableHlo.after hostOps0 (W0 m ρ c) (Proc.devRef .tc main_v1) = _
    after_results_simp
    rfl)
theorem W2_v3 (c : Dev nD) : W2 m ρ c (Proc.devRef .tc main_v3) = dstVec (F := F) (m ((c : Thread nD τ).loc main_arg1)) :=
  (W2_of_ne m ρ c main_v3 (by decide)).trans (by
    show StableHlo.after hostOps0 (W0 m ρ c) (Proc.devRef .tc main_v3) = _
    after_results_simp
    rfl)
theorem W2_v12 (c : Dev nD) : W2 m ρ c (Proc.devRef .tc main_v12) = invCol (F := F) (m ((c : Thread nD τ).loc main_arg1)) :=
  (W2_of_ne m ρ c main_v12 (by decide)).trans (by
    show StableHlo.after hostOps0 (W0 m ρ c) (Proc.devRef .tc main_v12) = _
    after_results_simp
    rfl)
theorem W2_arg11 (c : Dev nD) : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results_simp)
theorem W2_arg12 (c : Dev nD) : W2 m ρ c (Proc.devRef .tc main_arg12) = (m ((c : Thread nD τ).loc main_arg12)) :=
  (W2_of_ne m ρ c main_arg12 (by decide)).trans (by
    show StableHlo.after hostOps0 (W0 m ρ c) (Proc.devRef .tc main_arg12) = _
    after_results_simp)
theorem W2_arg13 (c : Dev nD) : W2 m ρ c (Proc.devRef .tc main_arg13) = (m ((c : Thread nD τ).loc main_arg13)) :=
  (W2_of_ne m ρ c main_arg13 (by decide)).trans (by
    show StableHlo.after hostOps0 (W0 m ρ c) (Proc.devRef .tc main_arg13) = _
    after_results_simp)

theorem V3_mean (c : Dev nD) : V3 m ρ c main_v38 = mean32 (F := F) (W2 m ρ c (Proc.devRef .tc main_v26)) (m ((c : Thread nD τ).loc main_arg1)) := by
  show StableHlo.after hostOps1 (W2 m ρ c) (Proc.devRef .tc main_v38) = _
  after_results_simp
  rw [W2_v1, W2_v3, W2_v12]
  rfl
theorem V3_hidden (c : Dev nD) : V3 m ρ c main_v26 = W2 m ρ c (Proc.devRef .tc main_v26) := by
  show StableHlo.after hostOps1 (W2 m ρ c) (Proc.devRef .tc main_v26) = _
  after_results_simp
theorem V3_arg11 (c : Dev nD) : V3 m ρ c main_arg11 = (m ((c : Thread nD τ).loc main_arg11)) := by
  show StableHlo.after hostOps1 (W2 m ρ c) (Proc.devRef .tc main_arg11) = _
  after_results_simp
  exact W2_arg11 m ρ c
theorem V3_arg12 (c : Dev nD) : V3 m ρ c main_arg12 = (m ((c : Thread nD τ).loc main_arg12)) := by
  show StableHlo.after hostOps1 (W2 m ρ c) (Proc.devRef .tc main_arg12) = _
  after_results_simp
  exact W2_arg12 m ρ c
theorem V3_bias (c : Dev nD) : V3 m ρ c main_v39 = shapeCast _ (m ((c : Thread nD τ).loc main_arg13)) shapeCasts_S40_S1x40 := by
  show StableHlo.after hostOps1 (W2 m ρ c) (Proc.devRef .tc main_v39) = _
  after_results_simp
  rw [W2_arg13]
  rfl

end Cert.KernelIdeal.HostK

end
-- ==== Proof.Spec.lean ====
/-
  One layer of the graph network, as mathematics over the extended reals, with no program in sight.

  A layer maps a node's aggregated neighbour row `a r` and its own row `x r` to
  `a r · wl + x r · wr + b`: entry `(r, j)` is the sum over `k` of `a (r, k) * wl (k, j)`, plus the sum over `k` of
  `x (r, k) * wr (k, j)`, plus `b (0, j)` (`lin`). The hidden layer clamps this below at zero (`relu`); the output layer
  takes the row-wise log-softmax (`lsm`): with `M r` the maximum of row `r` (a fold of `max` from −∞, `rowMax`),
  entry `(r, j)` is `(z (r, j) − M r) − log (Σ_j' exp (z (r, j') − M r))`.

  Every entry of a layer's result depends on ONE row of `a` and of `x` only; `lin_rows`, `relu_rows` and `lsm_rows` say so,
  which is what lets a result computed tile by tile (a tile being a range of rows) be read as the whole array's.

  Three laws of the extended reals join the two programs' spellings: multiplying by the reciprocal of a number that is at
  least one is dividing by it (`mul_recip_max_one`: the divisor is never zero, so no case of the division at zero arises, and
  no finiteness is needed); −∞ is the unit of `max` (`max_negInf`); the zero word is the unit of `+` (`zero_word_add`).
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-! ## The words the programs spell their constants with -/

/-- The word `0x3F800000` is the number one. -/
theorem one_word : Ideal.ofBits .f32 0x3F800000#32 = 1 := by
  simp [Ideal.ofBits, Ideal.ieee, -EReal.coe_mul]; norm_num

/-- The word `0xFF800000` is −∞. -/
theorem negInf_word : Ideal.ofBits .f32 0xFF800000#32 = ⊥ := by
  simp [Ideal.ofBits, Ideal.ieee]

/-- −∞ is the unit of `max`. -/
theorem max_negInf (x : EReal) : max (Ideal.ofBits .f32 0xFF800000#32) x = x := by
  rw [negInf_word]; exact max_eq_right bot_le

/-- The zero word is the unit of `+`. -/
theorem zero_word_add (x : EReal) : Ideal.ofBits .f32 0x00000000#32 + x = x := by
  rw [Ideal.ofBits_zero_f32, zero_add]

/-- Multiplying by the reciprocal of `max n 1` is dividing by it, for EVERY extended real `x` and `n`: `max n 1` is at
    least one, so it is not zero, and both sides are `x * (max n 1)⁻¹`. -/
theorem mul_recip_max_one (x n : EReal) :
    x * Ideal.div (Ideal.ofBits .f32 0x3F800000#32) (max n (Ideal.ofBits .f32 0x3F800000#32))
      = Ideal.div x (max n (Ideal.ofBits .f32 0x3F800000#32)) := by
  rw [one_word]
  have hne : max n (1 : EReal) ≠ 0 := by
    have h1 : (1 : EReal) ≤ max n 1 := le_max_right _ _
    have h0 : (0 : EReal) < 1 := by exact_mod_cast zero_lt_one
    exact (lt_of_lt_of_le h0 h1).ne'
  unfold Ideal.div
  rw [if_neg hne, if_neg hne, one_mul]

/-! ## A layer -/

variable {N D E : Nat}

/-- The linear part at `(r, j)`: neighbour row times `wl`, own row times `wr`, plus the bias. -/
def lin (a x : (⟨2, ![N, D]⟩ : Shape).Idx → EReal) (wl wr : (⟨2, ![D, E]⟩ : Shape).Idx → EReal)
    (b : (⟨2, ![1, E]⟩ : Shape).Idx → EReal) : (⟨2, ![N, E]⟩ : Shape).Idx → EReal :=
  fun i => ((∑ k : Fin D, a (ix2 (i 0 : Fin N) k) * wl (ix2 k (i 1 : Fin E)))
      + ∑ k : Fin D, x (ix2 (i 0 : Fin N) k) * wr (ix2 k (i 1 : Fin E))) + b (ix2 (0 : Fin 1) (i 1 : Fin E))

/-- Clamping below at zero. -/
def relu (z : (⟨2, ![N, E]⟩ : Shape).Idx → EReal) : (⟨2, ![N, E]⟩ : Shape).Idx → EReal :=
  fun i => max (z i) (Ideal.ofBits .f32 0x00000000#32)

/-- The maximum of row `r`, as a fold of `max` from −∞ over the row's entries. -/
def rowMax (z : (⟨2, ![N, E]⟩ : Shape).Idx → EReal) (r : Fin N) : EReal :=
  (Finset.univ : Finset (Fin E)).fold max (Ideal.ofBits .f32 0xFF800000#32) (fun j => z (ix2 r j))

/-- The row-wise log-softmax. -/
def lsm (z : (⟨2, ![N, E]⟩ : Shape).Idx → EReal) : (⟨2, ![N, E]⟩ : Shape).Idx → EReal :=
  fun i => (z i - rowMax z (i 0 : Fin N))
    - Ideal.log (∑ j : Fin E, Ideal.exp (z (ix2 (i 0 : Fin N) j) - rowMax z (i 0 : Fin N)))

/-! ## Each entry depends on one row -/

variable {N' : Nat}

/-- The linear part at `i` of one pair of arrays is the linear part at `i'` of another when row `i 0` of the first pair is
    row `i' 0` of the second and the two indices name the same column. -/
theorem lin_rows (a x : (⟨2, ![N, D]⟩ : Shape).Idx → EReal) (a' x' : (⟨2, ![N', D]⟩ : Shape).Idx → EReal)
    (wl wr : (⟨2, ![D, E]⟩ : Shape).Idx → EReal) (b : (⟨2, ![1, E]⟩ : Shape).Idx → EReal)
    (i : (⟨2, ![N, E]⟩ : Shape).Idx) (i' : (⟨2, ![N', E]⟩ : Shape).Idx)
    (ha : ∀ k : Fin D, a (ix2 (i 0 : Fin N) k) = a' (ix2 (i' 0 : Fin N') k))
    (hx : ∀ k : Fin D, x (ix2 (i 0 : Fin N) k) = x' (ix2 (i' 0 : Fin N') k))
    (hj : (i 1 : Fin E) = (i' 1 : Fin E)) :
    lin a x wl wr b i = lin a' x' wl wr b i' := by
  unfold lin
  simp only [ha, hx, hj]

/-- The same for the clamped value, given the unclamped values agree. -/
theorem relu_rows (z : (⟨2, ![N, E]⟩ : Shape).Idx → EReal) (z' : (⟨2, ![N', E]⟩ : Shape).Idx → EReal)
    (i : (⟨2, ![N, E]⟩ : Shape).Idx) (i' : (⟨2, ![N', E]⟩ : Shape).Idx) (h : z i = z' i') :
    relu z i = relu z' i' := by
  unfold relu; rw [h]

/-- The log-softmax at `i` of one array is that at `i'` of another when row `i 0` of the first is row `i' 0` of the
    second and the two indices name the same column. -/
theorem lsm_rows (z : (⟨2, ![N, E]⟩ : Shape).Idx → EReal) (z' : (⟨2, ![N', E]⟩ : Shape).Idx → EReal)
    (i : (⟨2, ![N, E]⟩ : Shape).Idx) (i' : (⟨2, ![N', E]⟩ : Shape).Idx)
    (hrow : ∀ j : Fin E, z (ix2 (i 0 : Fin N) j) = z' (ix2 (i' 0 : Fin N') j))
    (hj : (i 1 : Fin E) = (i' 1 : Fin E)) :
    lsm z i = lsm z' i' := by
  have hM : rowMax z (i 0 : Fin N) = rowMax z' (i' 0 : Fin N') := by
    unfold rowMax
    exact congrArg (fun f => (Finset.univ : Finset (Fin E)).fold max (Ideal.ofBits .f32 0xFF800000#32) f) (funext hrow)
  have hi : z i = z' i' :=
    (congrArg z (eq_ix2 i)).trans ((hrow (i 1 : Fin E)).trans ((congrArg (fun q : Fin E => z' (ix2 (i' 0 : Fin N') q)) hj).trans
      (congrArg z' (eq_ix2 i')).symm))
  unfold lsm
  rw [hM, hi]
  simp only [hrow]

end Cert.Sage

end
-- ==== Proof.Pay0.lean ====
/-
  What the hidden layer's kernel stores, as mathematics: from a tile of 5000 rows of the aggregated neighbour features
  and of the node features, the two [256, 32] weight matrices and the [1, 32] bias row, the stored tile is the layer's
  linear part clamped below at zero (`Cert.Sage.relu (Cert.Sage.lin …)`). The roundings to a narrower format on the way
  into the matrix unit are the identity on the extended reals; a matrix product into a zero accumulator is, entry by
  entry, the plain sum over the contracted axis.
-/
import proofs.«154788_j64845416235694_1_alg».proof.Proof.Gen.KernelIdeal.Skeleton
import proofs.«154788_j64845416235694_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay0

open Cert.KernelIdeal Cert.KernelIdeal.Gen Idealize.ShloMosaic Idealize.ShloMosaic.ValueIdx Cert.Sage

/-! ## The contraction's operand indices, axis by axis -/

theorem lhs_dot_S5000x256_S256x32_S5000x32_1_0_0_1_n_n_0 (i : S5000x32.Idx) (q : dot_S5000x256_S256x32_S5000x32_1_0_0_1_n_n.contr.Idx) :
    (dot_S5000x256_S256x32_S5000x32_1_0_0_1_n_n.lhsIdx i q 0).val = (i 0).val := by
  unfold DotDims.lhsIdx
  rw [dif_neg (show ¬(0 : Fin S5000x256.rank) ∈ dot_S5000x256_S256x32_S5000x32_1_0_0_1_n_n.lhsBatch by decide), dif_pos (show (0 : Fin S5000x256.rank) ∈ dot_S5000x256_S256x32_S5000x32_1_0_0_1_n_n.lhsNonContracting by decide)]
  rfl
theorem lhs_dot_S5000x256_S256x32_S5000x32_1_0_0_1_n_n_1 (i : S5000x32.Idx) (q : dot_S5000x256_S256x32_S5000x32_1_0_0_1_n_n.contr.Idx) :
    (dot_S5000x256_S256x32_S5000x32_1_0_0_1_n_n.lhsIdx i q 1).val = (q ⟨0, by decide⟩).val :=
  dot_S5000x256_S256x32_S5000x32_1_0_0_1_n_n.lhsIdx_val_of_single rfl i q
theorem rhs_dot_S5000x256_S256x32_S5000x32_1_0_0_1_n_n_0 (i : S5000x32.Idx) (q : dot_S5000x256_S256x32_S5000x32_1_0_0_1_n_n.contr.Idx) :
    (dot_S5000x256_S256x32_S5000x32_1_0_0_1_n_n.rhsIdx i q 0).val = (q ⟨0, by decide⟩).val :=
  dot_S5000x256_S256x32_S5000x32_1_0_0_1_n_n.rhsIdx_val_of_single rfl i q
theorem rhs_dot_S5000x256_S256x32_S5000x32_1_0_0_1_n_n_1 (i : S5000x32.Idx) (q : dot_S5000x256_S256x32_S5000x32_1_0_0_1_n_n.contr.Idx) :
    (dot_S5000x256_S256x32_S5000x32_1_0_0_1_n_n.rhsIdx i q 1).val = (i 1).val := by
  unfold DotDims.rhsIdx
  rw [dif_neg (show ¬(1 : Fin S256x32.rank) ∈ dot_S5000x256_S256x32_S5000x32_1_0_0_1_n_n.rhsBatch by decide), dif_pos (show (1 : Fin S256x32.rank) ∈ dot_S5000x256_S256x32_S5000x32_1_0_0_1_n_n.rhsNonContracting by decide)]
  rfl

/-- The matrix product of an [5000, 256] block and a [256, 32] block into a zero accumulator, at entry `(p, q)`: the sum
    over `k` of the left operand at `(p, k)` times the right at `(k, q)`. -/
theorem mm_apply {φ₁ φ₂ : FTy} (A : FVec Ideal S5000x256 φ₁) (B : FVec Ideal S256x32 φ₂) (p : Fin 5000) (q : Fin 32) :
    matmul dot_S5000x256_S256x32_S5000x32_1_0_0_1_n_n none A B (constant S5000x32 .f32 0x00000000#32) (ix2 p q)
      = ∑ k : Fin 256, A (ix2 p k) * B (ix2 k q) := by
  simp only [matmul]
  rw [Ideal.matmul_constant_zero_apply, ← Equiv.sum_comp (contrEquiv1 dot_S5000x256_S256x32_S5000x32_1_0_0_1_n_n 256 rfl rfl).symm]
  refine Finset.sum_congr rfl fun k _ => ?_
  have hk := contrEquiv1_symm_val dot_S5000x256_S256x32_S5000x32_1_0_0_1_n_n 256 rfl rfl k
  have el : dot_S5000x256_S256x32_S5000x32_1_0_0_1_n_n.lhsIdx (ix2 p q) ((contrEquiv1 dot_S5000x256_S256x32_S5000x32_1_0_0_1_n_n 256 rfl rfl).symm k) = ix2 p k := funext fun a => Fin.ext (by
    match a with
    | ⟨0, _⟩ => exact lhs_dot_S5000x256_S256x32_S5000x32_1_0_0_1_n_n_0 _ _
    | ⟨1, _⟩ => exact (lhs_dot_S5000x256_S256x32_S5000x32_1_0_0_1_n_n_1 _ _).trans hk)
  have er : dot_S5000x256_S256x32_S5000x32_1_0_0_1_n_n.rhsIdx (ix2 p q) ((contrEquiv1 dot_S5000x256_S256x32_S5000x32_1_0_0_1_n_n 256 rfl rfl).symm k) = ix2 k q := funext fun a => Fin.ext (by
    match a with
    | ⟨0, _⟩ => exact (rhs_dot_S5000x256_S256x32_S5000x32_1_0_0_1_n_n_0 _ _).trans hk
    | ⟨1, _⟩ => exact rhs_dot_S5000x256_S256x32_S5000x32_1_0_0_1_n_n_1 _ _)
  rw [el, er]

/-- The stored tile is the clamped linear part of the loaded tiles. -/
theorem pay_eq (v0 v3 : Vec Ideal S5000x256 .f32) (v5 v7 : Vec Ideal S256x32 .f32) (v12 : Vec Ideal S1x32 .f32) :
    k0_pay1 (F := Ideal) v0 v3 v5 v7 v12 = relu (lin (N := 5000) (D := 256) (E := 32) v0 v3 v5 v7 v12) := by
  funext i
  obtain ⟨p, q, rfl⟩ : ∃ (p : Fin 5000) (q : Fin 32), i = ix2 p q := ⟨i 0, i 1, eq_ix2 i⟩
  unfold k0_pay1 relu lin
  rw [maximumf_apply, addf_apply, addf_apply, mm_apply, mm_apply, broadcastTo_1b_ab_apply, shapeCast_self, broadcast_apply]
  simp only [truncf_apply, shapeCast_self]
  rfl

end Cert.KernelIdeal.Pay0

end
-- ==== Proof.Region0.lean ====
/-
  The hidden layer as the first kernel region leaves it. The region's grid has ten points; point `t` is handed rows
  `5000 t … 5000 t + 4999` of the aggregated neighbour features and of the node features, the whole of the two weight
  matrices and of the bias row, and writes rows `5000 t … 5000 t + 4999` of the result. Every entry of a layer depends on
  one row of its inputs only, so the tile a point writes is that range of rows of the layer applied to the WHOLE arrays;
  the ten tiles cover the result, row `r` lying in tile `r / 5000`. Hence, whatever the buffers hold when the region is
  entered (`V`), the result array ends at `relu (lin …)` of the five arrays the region reads.
-/
import proofs.«154788_j64845416235694_1_alg».proof.Proof.Gen.KernelIdeal.Frame
import proofs.«154788_j64845416235694_1_alg».proof.Proof.Pay0
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the two row-tiled inputs and the output move with the point
    along the rows, the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer on a tile is the layer on the whole arrays at the tile's rows: the tile's rows of the two row-tiled
    inputs are the arrays' (`ha`, `hx`), the weights and the bias are the arrays themselves, the column is the same. -/
theorem tile_eq (A X : S50000x256.Idx → EReal) (Wl Wr : S256x32.Idx → EReal) (B : S1x32.Idx → EReal)
    (a x : S5000x256.Idx → EReal) (wl wr : S256x32.Idx → EReal) (b : S1x32.Idx → EReal)
    (y : S5000x32.Idx) (i : S50000x32.Idx)
    (ha : ∀ k : Fin 256, a (ix2 (y 0 : Fin 5000) k) = A (ix2 (i 0 : Fin 50000) k))
    (hx : ∀ k : Fin 256, x (ix2 (y 0 : Fin 5000) k) = X (ix2 (i 0 : Fin 50000) k))
    (hwl : wl = Wl) (hwr : wr = Wr) (hb : b = B) (hj : (y 1 : Fin 32) = (i 1 : Fin 32)) :
    relu (lin (N := 5000) (D := 256) (E := 32) a x wl wr b) y
      = relu (lin (N := 50000) (D := 256) (E := 32) A X Wl Wr B) i := by
  subst hwl hwr hb
  exact relu_rows _ _ _ _ (lin_rows _ _ _ _ _ _ _ _ _ ha hx hj)

/-- The hidden layer of the arrays the region reads, as it finds them. -/
abbrev H (c : Dev nD) : S50000x32.Idx → EReal :=
  relu (lin (N := 50000) (D := 256) (E := 32) (V c main_v24) (V c main_arg0) (V c main_arg8) (V c main_arg9) (V c main_v25))

/-- What point `t` writes back is rows `5000 t …` of the hidden layer of the whole arrays. -/
theorem flushed_eq (c : Dev nD) (t : Fin cfg0.N) :
    (dat0 V c).flushed 5 t = ((cfg0.win 5).blk t).view.read (Elt Ideal) (H V c) := by
  show (cfg0.win 5).cut (grid0.coords t) ((dat0 V c).after 5 t) = _
  rw [after0_5]
  unfold out0_5
  rw [View.canon_unit_zero hz]
  simp only [View.ld_unit_zero (S := S5000x256) hz, View.ld_unit_zero (S := S256x32) hz, View.ld_unit_zero (S := S1x32) hz]
  refine (Pay0.pay_eq (iblk0 V c 0 t) (iblk0 V c 1 t) (iblk0 V c 2 t) (iblk0 V c 3 t) (iblk0 V c 4 t)).trans ?_
  obtain ⟨e00, e01, e10, e11, e20, e21, e30, e31, e40, e41, e50, e51⟩ := idx_facts t
  funext y
  show relu (lin (N := 5000) (D := 256) (E := 32) (iblk0 V c 0 t) (iblk0 V c 1 t) (iblk0 V c 2 t) (iblk0 V c 3 t) (iblk0 V c 4 t)) y
    = H V c (((cfg0.win 5).blk t).view.emb y)
  refine tile_eq _ _ _ _ _ _ _ _ _ _ y _ (fun k => ?_) (fun k => ?_) ?_ ?_ ?_ ?_
  · show V c main_v24 (((cfg0.win 0).blk t).view.emb (ix2 (y 0 : Fin 5000) k)) = _
    refine congrArg (V c main_v24) (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 256 + 1 * k.val = k.val; omega
  · show V c main_arg0 (((cfg0.win 1).blk t).view.emb (ix2 (y 0 : Fin 5000) k)) = _
    refine congrArg (V c main_arg0) (funext fun a => Fin.ext ?_)
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 256 + 1 * k.val = k.val; omega
  · funext z
    show V c main_arg8 (((cfg0.win 2).blk t).view.emb z) = V c main_arg8 z
    refine congrArg (V c main_arg8) (funext fun a => Fin.ext ?_)
    match a with
    | ⟨0, _⟩ => show win0_2.index t (0 : Fin 2) * 256 + 1 * (z 0).val = (z 0).val; omega
    | ⟨1, _⟩ => show win0_2.index t (1 : Fin 2) * 32 + 1 * (z 1).val = (z 1).val; omega
  · funext z
    show V c main_arg9 (((cfg0.win 3).blk t).view.emb z) = V c main_arg9 z
    refine congrArg (V c main_arg9) (funext fun a => Fin.ext ?_)
    match a with
    | ⟨0, _⟩ => show win0_3.index t (0 : Fin 2) * 256 + 1 * (z 0).val = (z 0).val; omega
    | ⟨1, _⟩ => show win0_3.index t (1 : Fin 2) * 32 + 1 * (z 1).val = (z 1).val; omega
  · funext z
    show V c main_v25 (((cfg0.win 4).blk t).view.emb z) = V c main_v25 z
    refine congrArg (V c main_v25) (funext fun a => Fin.ext ?_)
    match a with
    | ⟨0, _⟩ => show win0_4.index t (0 : Fin 2) * 1 + 1 * (z 0).val = (z 0).val; omega
    | ⟨1, _⟩ => show win0_4.index t (1 : Fin 2) * 32 + 1 * (z 1).val = (z 1).val; omega
  · apply Fin.ext
    show (y 1).val = win0_5.index t (1 : Fin 2) * 32 + 1 * (y 1).val
    omega

/-- An index of the result array is in point `t`'s tile iff each coordinate is in the tile's range on its axis. -/
theorem mem_blk (t : Fin cfg0.N) (i : S50000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v26).slice (win0_5.rect t)).set ↔ _
  rw [View.set_slice_whole, Rect.mem_set_unit]
  exact Iff.rfl

/-- Row `r` of the result lies in the tile of point `r / 5000`. -/
theorem cover (i : S50000x32.Idx) : ∃ t : Fin cfg0.N, (cfg0.win 5).flush t = true ∧ i ∈ ((cfg0.win 5).blk t).view.set := by
  have hi0 : (i 0).val < 50000 := (i 0).isLt
  have hi1 : (i 1).val < 32 := (i 1).isLt
  have hN : cfg0.N = 10 := N_0
  let t : Fin cfg0.N := ⟨(i 0).val / 5000, by rw [hN]; omega⟩
  obtain ⟨e00, e01, e10, e11, e20, e21, e30, e31, e40, e41, e50, e51⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 32 ≤ (i 1).val ∧ (i 1).val < win0_5.index t (1 : Fin 2) * 32 + 32; omega

/-- The result array after the region: the hidden layer of the arrays the region read. -/
theorem arr_eq (c : Dev nD) : (dat0 V c).arrAt 5 cfg0.N = H V c :=
  (dat0 V c).arrAt_eq_of_cover 5 (H V c) (fun t _ => flushed_eq V c t) cover

end Cert.KernelIdeal.Region0

end
-- ==== Proof.Pay1.lean ====
/-
  What the output layer's kernel stores, as mathematics: from a tile of 5000 rows of the aggregated hidden features and
  of the hidden features, the two [32, 40] weight matrices and the [1, 40] bias row, the stored tile is the row-wise
  log-softmax of the layer's linear part (`Cert.Sage.lsm (Cert.Sage.lin …)`). The row maximum is the lane reduction by
  `max` from −∞, the normaliser the lane sum of the exponentials of the shifted row; a value kept per row is stored as a
  column and broadcast back along the row.
-/
import proofs.«154788_j64845416235694_1_alg».proof.Proof.Gen.KernelIdeal.Skeleton
import proofs.«154788_j64845416235694_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay1

open Cert.KernelIdeal Cert.KernelIdeal.Gen Idealize.ShloMosaic Idealize.ShloMosaic.ValueIdx Cert.Sage

/-! ## The contraction's operand indices, axis by axis -/

theorem lhs_dot_S5000x32_S32x40_S5000x40_1_0_0_1_n_n_0 (i : S5000x40.Idx) (q : dot_S5000x32_S32x40_S5000x40_1_0_0_1_n_n.contr.Idx) :
    (dot_S5000x32_S32x40_S5000x40_1_0_0_1_n_n.lhsIdx i q 0).val = (i 0).val := by
  unfold DotDims.lhsIdx
  rw [dif_neg (show ¬(0 : Fin S5000x32.rank) ∈ dot_S5000x32_S32x40_S5000x40_1_0_0_1_n_n.lhsBatch by decide), dif_pos (show (0 : Fin S5000x32.rank) ∈ dot_S5000x32_S32x40_S5000x40_1_0_0_1_n_n.lhsNonContracting by decide)]
  rfl
theorem lhs_dot_S5000x32_S32x40_S5000x40_1_0_0_1_n_n_1 (i : S5000x40.Idx) (q : dot_S5000x32_S32x40_S5000x40_1_0_0_1_n_n.contr.Idx) :
    (dot_S5000x32_S32x40_S5000x40_1_0_0_1_n_n.lhsIdx i q 1).val = (q ⟨0, by decide⟩).val :=
  dot_S5000x32_S32x40_S5000x40_1_0_0_1_n_n.lhsIdx_val_of_single rfl i q
theorem rhs_dot_S5000x32_S32x40_S5000x40_1_0_0_1_n_n_0 (i : S5000x40.Idx) (q : dot_S5000x32_S32x40_S5000x40_1_0_0_1_n_n.contr.Idx) :
    (dot_S5000x32_S32x40_S5000x40_1_0_0_1_n_n.rhsIdx i q 0).val = (q ⟨0, by decide⟩).val :=
  dot_S5000x32_S32x40_S5000x40_1_0_0_1_n_n.rhsIdx_val_of_single rfl i q
theorem rhs_dot_S5000x32_S32x40_S5000x40_1_0_0_1_n_n_1 (i : S5000x40.Idx) (q : dot_S5000x32_S32x40_S5000x40_1_0_0_1_n_n.contr.Idx) :
    (dot_S5000x32_S32x40_S5000x40_1_0_0_1_n_n.rhsIdx i q 1).val = (i 1).val := by
  unfold DotDims.rhsIdx
  rw [dif_neg (show ¬(1 : Fin S32x40.rank) ∈ dot_S5000x32_S32x40_S5000x40_1_0_0_1_n_n.rhsBatch by decide), dif_pos (show (1 : Fin S32x40.rank) ∈ dot_S5000x32_S32x40_S5000x40_1_0_0_1_n_n.rhsNonContracting by decide)]
  rfl

/-- The matrix product of an [5000, 32] block and a [32, 40] block into a zero accumulator, at entry `(p, q)`: the sum
    over `k` of the left operand at `(p, k)` times the right at `(k, q)`. -/
theorem mm_apply {φ₁ φ₂ : FTy} (A : FVec Ideal S5000x32 φ₁) (B : FVec Ideal S32x40 φ₂) (p : Fin 5000) (q : Fin 40) :
    matmul dot_S5000x32_S32x40_S5000x40_1_0_0_1_n_n none A B (constant S5000x40 .f32 0x00000000#32) (ix2 p q)
      = ∑ k : Fin 32, A (ix2 p k) * B (ix2 k q) := by
  simp only [matmul]
  rw [Ideal.matmul_constant_zero_apply, ← Equiv.sum_comp (contrEquiv1 dot_S5000x32_S32x40_S5000x40_1_0_0_1_n_n 32 rfl rfl).symm]
  refine Finset.sum_congr rfl fun k _ => ?_
  have hk := contrEquiv1_symm_val dot_S5000x32_S32x40_S5000x40_1_0_0_1_n_n 32 rfl rfl k
  have el : dot_S5000x32_S32x40_S5000x40_1_0_0_1_n_n.lhsIdx (ix2 p q) ((contrEquiv1 dot_S5000x32_S32x40_S5000x40_1_0_0_1_n_n 32 rfl rfl).symm k) = ix2 p k := funext fun a => Fin.ext (by
    match a with
    | ⟨0, _⟩ => exact lhs_dot_S5000x32_S32x40_S5000x40_1_0_0_1_n_n_0 _ _
    | ⟨1, _⟩ => exact (lhs_dot_S5000x32_S32x40_S5000x40_1_0_0_1_n_n_1 _ _).trans hk)
  have er : dot_S5000x32_S32x40_S5000x40_1_0_0_1_n_n.rhsIdx (ix2 p q) ((contrEquiv1 dot_S5000x32_S32x40_S5000x40_1_0_0_1_n_n 32 rfl rfl).symm k) = ix2 k q := funext fun a => Fin.ext (by
    match a with
    | ⟨0, _⟩ => exact (rhs_dot_S5000x32_S32x40_S5000x40_1_0_0_1_n_n_0 _ _).trans hk
    | ⟨1, _⟩ => exact rhs_dot_S5000x32_S32x40_S5000x40_1_0_0_1_n_n_1 _ _)
  rw [el, er]

/-! ## A value per row: kept as a column, broadcast along the row -/

/-- A [5000] array cast to a [5000, 1] column reads, at `(p, u)`, the array at `p`. -/
theorem cast_col {α : Type} (x : S5000.Idx → α) (h : S5000.ShapeCasts S5000x1) (p : Fin 5000) (u : Fin 1) :
    shapeCast S5000x1 x h (ix2 p u) = x (ix1 p) :=
  shapeCast_apply x h _ _ (by
    have hu : u.val = 0 := by omega
    rw [Shape.rowMajor_val_two, Shape.rowMajor_val_one]
    show p.val = p.val * 1 + u.val
    rw [hu]; omega)

/-- A [5000, 1] column broadcast to [5000, 40] reads, at `(p, q)`, the column at row `p`. -/
theorem bcast_col {α : Type} (v : S5000x1.Idx → α) (h : S5000x1.Broadcasts S5000x40) (p : Fin 5000) (q : Fin 40) :
    broadcastTo S5000x40 v h (ix2 p q) = v (ix2 p (0 : Fin 1)) := by
  refine broadcastTo_apply v h (ix2 p q) (ix2 p (0 : Fin 1)) fun ax => ?_
  match ax with
  | ⟨0, _⟩ =>
    show p.val = if (5000 : Nat) = 1 then 0 else p.val
    rw [if_neg (by decide)]
  | ⟨1, _⟩ => rfl

/-- The index a reduction over the lane axis reads at row `p`, lane `k`. -/
theorem lift_eq (h : S5000x40.Reduces [1] S5000) (p : Fin 5000) (k : Fin 40) :
    h.lift (ix1 p) k = ix2 p k := by
  funext a; apply Fin.ext
  match a with
  | ⟨0, _⟩ => rfl
  | ⟨1, _⟩ => rfl

/-- The lane reduction by `max` from −∞ is the row's maximum. -/
theorem rowmax_apply (Z : FVec Ideal S5000x40 .f32) (h : S5000x40.Reduces [1] S5000) (hφ) (hacc) (p : Fin 5000) :
    multiReduction .maximumf [1] S5000 Z 0xFF800000#32 h hφ hacc (ix1 p) = rowMax (N := 5000) (E := 40) Z p := by
  rw [Ideal.multiReduction_maximumf_single]
  unfold rowMax
  show (Finset.univ : Finset (Fin 40)).fold max (Ideal.ofBits .f32 0xFF800000#32) (fun k : Fin 40 => Z (h.lift (ix1 p) k)) = _
  exact congrArg (fun f => (Finset.univ : Finset (Fin 40)).fold max (Ideal.ofBits .f32 0xFF800000#32) f)
    (funext fun k => congrArg Z (lift_eq h p k))

/-- The lane reduction by `+` from zero is the row's sum. -/
theorem rowsum_apply (Z : FVec Ideal S5000x40 .f32) (h : S5000x40.Reduces [1] S5000) (hφ) (hacc) (p : Fin 5000) :
    multiReduction .add [1] S5000 Z 0x00000000#32 h hφ hacc (ix1 p) = ∑ k : Fin 40, Z (ix2 p k) := by
  rw [Ideal.multiReduction_add_single]
  show ∑ k : Fin 40, Z (h.lift (ix1 p) k) = _
  exact Finset.sum_congr rfl fun k _ => congrArg Z (lift_eq h p k)

/-- The linear part, as the kernel spells it — two matrix products into zero accumulators, added, plus the bias row
    broadcast down the tile — is `lin` of the loaded tiles. -/
theorem lin_eq (v0 v3 : Vec Ideal S5000x32 .f32) (v6 v8 : Vec Ideal S32x40 .f32) (v13 : Vec Ideal S1x40 .f32) :
    (addf (addf (matmul dot_S5000x32_S32x40_S5000x40_1_0_0_1_n_n none (truncf .bf16 (shapeCast S5000x32 v0 shapeCasts_S5000x32_S5000x32) bitsLt_bf16_f32)
                  (truncf .bf16 v6 bitsLt_bf16_f32) (constant S5000x40 .f32 0x00000000#32))
               (matmul dot_S5000x32_S32x40_S5000x40_1_0_0_1_n_n none (truncf .bf16 (shapeCast S5000x32 v3 shapeCasts_S5000x32_S5000x32) bitsLt_bf16_f32)
                  (truncf .bf16 v8 bitsLt_bf16_f32) (constant S5000x40 .f32 0x00000000#32)))
         (broadcastTo S5000x40 (shapeCast S1x40 v13 shapeCasts_S1x40_S1x40) broadcasts_S1x40_S5000x40) : FVec Ideal S5000x40 .f32)
      = lin (N := 5000) (D := 32) (E := 40) v0 v3 v6 v8 v13 := by
  funext i
  obtain ⟨p, q, rfl⟩ : ∃ (p : Fin 5000) (q : Fin 40), i = ix2 p q := ⟨i 0, i 1, eq_ix2 i⟩
  unfold lin
  rw [addf_apply, addf_apply, mm_apply, mm_apply, broadcastTo_1b_ab_apply, shapeCast_self]
  simp only [truncf_apply, shapeCast_self]

/-- Around any array `Z` of logits, the kernel's subtraction of the row maximum, exponential, lane sum, logarithm and
    second subtraction are the row-wise log-softmax of `Z`. -/
theorem lsm_wrap (Z : FVec Ideal S5000x40 .f32) (h : S5000x40.Reduces [1] S5000) (hφ) (hacc1) (hacc2)
    (hc : S5000.ShapeCasts S5000x1) (hb : S5000x1.Broadcasts S5000x40) :
    (subf (subf Z (broadcastTo S5000x40 (shapeCast S5000x1 (multiReduction .maximumf [1] S5000 Z 0xFF800000#32 h hφ hacc1) hc) hb))
        (broadcastTo S5000x40 (log (shapeCast S5000x1 (multiReduction .add [1] S5000
          (exp (subf Z (broadcastTo S5000x40 (shapeCast S5000x1 (multiReduction .maximumf [1] S5000 Z 0xFF800000#32 h hφ hacc1) hc) hb)))
          0x00000000#32 h hφ hacc2) hc)) hb) : FVec Ideal S5000x40 .f32)
      = lsm (N := 5000) (E := 40) Z := by
  funext i
  obtain ⟨p, q, rfl⟩ : ∃ (p : Fin 5000) (q : Fin 40), i = ix2 p q := ⟨i 0, i 1, eq_ix2 i⟩
  have hshift : ∀ k : Fin 40,
      subf Z (broadcastTo S5000x40 (shapeCast S5000x1 (multiReduction .maximumf [1] S5000 Z 0xFF800000#32 h hφ hacc1) hc) hb) (ix2 p k)
        = Z (ix2 p k) - rowMax (N := 5000) (E := 40) Z p := fun k => by
    rw [subf_apply, bcast_col, cast_col, rowmax_apply]
  rw [subf_apply, hshift, bcast_col]
  show (Z (ix2 p q) - rowMax (N := 5000) (E := 40) Z p) - Ideal.log (shapeCast S5000x1 (multiReduction .add [1] S5000
          (exp (subf Z (broadcastTo S5000x40 (shapeCast S5000x1 (multiReduction .maximumf [1] S5000 Z 0xFF800000#32 h hφ hacc1) hc) hb)))
          0x00000000#32 h hφ hacc2) hc (ix2 p (0 : Fin 1))) = _
  rw [cast_col, rowsum_apply]
  have hsum : (∑ k : Fin 40, exp (subf Z (broadcastTo S5000x40 (shapeCast S5000x1 (multiReduction .maximumf [1] S5000 Z 0xFF800000#32 h hφ hacc1) hc) hb)) (ix2 p k))
      = ∑ k : Fin 40, Ideal.exp (Z (ix2 p k) - rowMax (N := 5000) (E := 40) Z p) :=
    Finset.sum_congr rfl fun k _ => congrArg Ideal.exp (hshift k)
  rw [hsum]
  rfl

/-- The stored tile is the row-wise log-softmax of the linear part of the loaded tiles. -/
theorem pay_eq (v0 v3 : Vec Ideal S5000x32 .f32) (v6 v8 : Vec Ideal S32x40 .f32) (v13 : Vec Ideal S1x40 .f32) :
    k1_pay1 (F := Ideal) v0 v3 v6 v8 v13 = lsm (lin (N := 5000) (D := 32) (E := 40) v0 v3 v6 v8 v13) := by
  funext i
  unfold k1_pay1
  rw [lin_eq]
  exact congrFun (lsm_wrap _ _ _ _ _ _ _) i

end Cert.KernelIdeal.Pay1

end
-- ==== Proof.Region1.lean ====
/-
  The output layer as the second kernel region leaves it. Again ten grid points; point `t` is handed rows
  `5000 t … 5000 t + 4999` of the aggregated hidden features and of the hidden features, the whole of the two [32, 40]
  weight matrices and of the bias row, and writes the same rows of the result. The log-softmax of a row of logits needs
  that row only, and a row of logits needs one row of each input only; so the tile a point writes is that range of rows of
  `lsm (lin …)` of the WHOLE arrays, and the ten tiles cover the result. Whatever the buffers hold when the region is
  entered (`V`), the result array ends at `lsm (lin …)` of the five arrays the region reads.
-/
import proofs.«154788_j64845416235694_1_alg».proof.Proof.Gen.KernelIdeal.Frame
import proofs.«154788_j64845416235694_1_alg».proof.Proof.Pay1
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the two row-tiled inputs and the output move with the point
    along the rows, the weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The log-softmax of the layer on a tile is that of the layer on the whole arrays at the tile's rows: a row of the
    result needs the same row of the logits, and that row of logits the same row of the two row-tiled inputs. -/
theorem tile_eq (A X : S50000x32.Idx → EReal) (Wl Wr : S32x40.Idx → EReal) (B : S1x40.Idx → EReal)
    (a x : S5000x32.Idx → EReal) (wl wr : S32x40.Idx → EReal) (b : S1x40.Idx → EReal)
    (y : S5000x40.Idx) (i : S50000x40.Idx)
    (ha : ∀ k : Fin 32, a (ix2 (y 0 : Fin 5000) k) = A (ix2 (i 0 : Fin 50000) k))
    (hx : ∀ k : Fin 32, x (ix2 (y 0 : Fin 5000) k) = X (ix2 (i 0 : Fin 50000) k))
    (hwl : wl = Wl) (hwr : wr = Wr) (hb : b = B) (hj : (y 1 : Fin 40) = (i 1 : Fin 40)) :
    lsm (lin (N := 5000) (D := 32) (E := 40) a x wl wr b) y
      = lsm (lin (N := 50000) (D := 32) (E := 40) A X Wl Wr B) i := by
  subst hwl hwr hb
  refine lsm_rows _ _ _ _ (fun j => ?_) hj
  exact lin_rows _ _ _ _ _ _ _ (ix2 (y 0 : Fin 5000) j) (ix2 (i 0 : Fin 50000) j) ha hx rfl

/-- The output layer of the arrays the region reads, as it finds them. -/
abbrev O (c : Dev nD) : S50000x40.Idx → EReal :=
  lsm (lin (N := 50000) (D := 32) (E := 40) (V c main_v38) (V c main_v26) (V c main_arg11) (V c main_arg12) (V c main_v39))

/-- What point `t` writes back is rows `5000 t …` of the output layer of the whole arrays. -/
theorem flushed_eq (c : Dev nD) (t : Fin cfg1.N) :
    (dat1 V c).flushed 5 t = ((cfg1.win 5).blk t).view.read (Elt Ideal) (O V c) := by
  show (cfg1.win 5).cut (grid1.coords t) ((dat1 V c).after 5 t) = _
  rw [after1_5]
  unfold out1_5
  rw [View.canon_unit_zero hz]
  simp only [View.ld_unit_zero (S := S5000x32) hz, View.ld_unit_zero (S := S32x40) hz, View.ld_unit_zero (S := S1x40) hz]
  refine (Pay1.pay_eq (iblk1 V c 0 t) (iblk1 V c 1 t) (iblk1 V c 2 t) (iblk1 V c 3 t) (iblk1 V c 4 t)).trans ?_
  obtain ⟨e00, e01, e10, e11, e20, e21, e30, e31, e40, e41, e50, e51⟩ := idx_facts t
  funext y
  show lsm (lin (N := 5000) (D := 32) (E := 40) (iblk1 V c 0 t) (iblk1 V c 1 t) (iblk1 V c 2 t) (iblk1 V c 3 t) (iblk1 V c 4 t)) y
    = O V c (((cfg1.win 5).blk t).view.emb y)
  refine tile_eq _ _ _ _ _ _ _ _ _ _ y _ (fun k => ?_) (fun k => ?_) ?_ ?_ ?_ ?_
  · show V c main_v38 (((cfg1.win 0).blk t).view.emb (ix2 (y 0 : Fin 5000) k)) = _
    refine congrArg (V c main_v38) (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 32 + 1 * k.val = k.val; omega
  · show V c main_v26 (((cfg1.win 1).blk t).view.emb (ix2 (y 0 : Fin 5000) k)) = _
    refine congrArg (V c main_v26) (funext fun a => Fin.ext ?_)
    match a with
    | ⟨0, _⟩ => show win1_1.index t (0 : Fin 2) * 5000 + 1 * (y 0).val = win1_5.index t (0 : Fin 2) * 5000 + 1 * (y 0).val; omega
    | ⟨1, _⟩ => show win1_1.index t (1 : Fin 2) * 32 + 1 * k.val = k.val; omega
  · funext z
    show V c main_arg11 (((cfg1.win 2).blk t).view.emb z) = V c main_arg11 z
    refine congrArg (V c main_arg11) (funext fun a => Fin.ext ?_)
    match a with
    | ⟨0, _⟩ => show win1_2.index t (0 : Fin 2) * 32 + 1 * (z 0).val = (z 0).val; omega
    | ⟨1, _⟩ => show win1_2.index t (1 : Fin 2) * 40 + 1 * (z 1).val = (z 1).val; omega
  · funext z
    show V c main_arg12 (((cfg1.win 3).blk t).view.emb z) = V c main_arg12 z
    refine congrArg (V c main_arg12) (funext fun a => Fin.ext ?_)
    match a with
    | ⟨0, _⟩ => show win1_3.index t (0 : Fin 2) * 32 + 1 * (z 0).val = (z 0).val; omega
    | ⟨1, _⟩ => show win1_3.index t (1 : Fin 2) * 40 + 1 * (z 1).val = (z 1).val; omega
  · funext z
    show V c main_v39 (((cfg1.win 4).blk t).view.emb z) = V c main_v39 z
    refine congrArg (V c main_v39) (funext fun a => Fin.ext ?_)
    match a with
    | ⟨0, _⟩ => show win1_4.index t (0 : Fin 2) * 1 + 1 * (z 0).val = (z 0).val; omega
    | ⟨1, _⟩ => show win1_4.index t (1 : Fin 2) * 40 + 1 * (z 1).val = (z 1).val; omega
  · apply Fin.ext
    show (y 1).val = win1_5.index t (1 : Fin 2) * 40 + 1 * (y 1).val
    omega

/-- An index of the result array is in point `t`'s tile iff each coordinate is in the tile's range on its axis. -/
theorem mem_blk (t : Fin cfg1.N) (i : S50000x40.Idx) :
    i ∈ ((cfg1.win 5).blk t).view.set ↔ ∀ a : Fin 2, win1_5.index t a * S5000x40.size a ≤ (i a).val ∧ (i a).val < win1_5.index t a * S5000x40.size a + S5000x40.size a := by
  show i ∈ ((View.whole main_v40).slice (win1_5.rect t)).set ↔ _
  rw [View.set_slice_whole, Rect.mem_set_unit]
  exact Iff.rfl

/-- Row `r` of the result lies in the tile of point `r / 5000`. -/
theorem cover (i : S50000x40.Idx) : ∃ t : Fin cfg1.N, (cfg1.win 5).flush t = true ∧ i ∈ ((cfg1.win 5).blk t).view.set := by
  have hi0 : (i 0).val < 50000 := (i 0).isLt
  have hi1 : (i 1).val < 40 := (i 1).isLt
  have hN : cfg1.N = 10 := N_1
  let t : Fin cfg1.N := ⟨(i 0).val / 5000, by rw [hN]; omega⟩
  obtain ⟨e00, e01, e10, e11, e20, e21, e30, e31, e40, e41, e50, e51⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 40 ≤ (i 1).val ∧ (i 1).val < win1_5.index t (1 : Fin 2) * 40 + 40; omega

/-- The result array after the region: the output layer of the arrays the region read. -/
theorem arr_eq (c : Dev nD) : (dat1 V c).arrAt 5 cfg1.N = O V c :=
  (dat1 V c).arrAt_eq_of_cover 5 (O V c) (fun t _ => flushed_eq V c t) cover

end Cert.KernelIdeal.Region1

end
-- ==== Proof.KValue.lean ====
/-
  What the kernel's program computes, as one function of its argument arrays. With `x` the node features, `e` the edge
  list, and `mean256` / `mean32` the neighbour means as the host stretches spell them (sum over incoming edges times the
  reciprocal in-degree), the first region leaves the hidden layer
      h = relu (lin (mean256 x e) x Wl3 Wr3 b3)
  and the second, from the mean of `h` over the same edges, the result
      lsm (lin (mean32 h e) h Wl4 Wr4 b4).
  Each region's array is read by the region's value theorem at what the preceding host stretch left in its inputs.
-/
import proofs.«154788_j64845416235694_1_alg».proof.Proof.KRun
import proofs.«154788_j64845416235694_1_alg».proof.Proof.HostK
import proofs.«154788_j64845416235694_1_alg».proof.Proof.Region0
import proofs.«154788_j64845416235694_1_alg».proof.Proof.Region1

set_option maxRecDepth 16384

noncomputable section

namespace Cert.KernelIdeal.KValue

open Cert.KernelIdeal Cert.KernelIdeal.Gen Idealize.ShloMosaic Idealize.ShloMosaic.TcCoe Idealize.SL.Sem
open Cert.Sage Cert.KernelIdeal.HostK

variable (m : (ℓ : Loc nD τ sig) → Buf (Elt Ideal) ℓ) (ρ : Dev nD → PrngReg)

/-- The hidden layer, of the argument arrays. -/
def hidden (x : S50000x256.Idx → EReal) (e : (⟨S2x300000, .i32⟩ : BufTy).Contents (Elt Ideal))
    (wl wr : S256x32.Idx → EReal) (b : S32.Idx → EReal) : S50000x32.Idx → EReal :=
  relu (lin (N := 50000) (D := 256) (E := 32) (mean256 (F := Ideal) x e) x wl wr (shapeCast S1x32 b shapeCasts_S32_S1x32))

/-- The result, of the argument arrays. -/
def out (x : S50000x256.Idx → EReal) (e : (⟨S2x300000, .i32⟩ : BufTy).Contents (Elt Ideal))
    (wl3 wr3 : S256x32.Idx → EReal) (b3 : S32.Idx → EReal) (wl4 wr4 : S32x40.Idx → EReal) (b4 : S40.Idx → EReal) :
    S50000x40.Idx → EReal :=
  lsm (lin (N := 50000) (D := 32) (E := 40) (mean32 (F := Ideal) (hidden x e wl3 wr3 b3) e) (hidden x e wl3 wr3 b3) wl4 wr4
    (shapeCast S1x40 b4 shapeCasts_S40_S1x40))

/-- After the first region its result array holds the hidden layer of the arguments. -/
theorem W2_hidden (c : Dev nD) :
    W2 m ρ c (Proc.devRef .tc main_v26) = hidden (m ((c : Thread nD τ).loc main_arg0)) (m ((c : Thread nD τ).loc main_arg1)) (m ((c : Thread nD τ).loc main_arg8)) (m ((c : Thread nD τ).loc main_arg9)) (m ((c : Thread nD τ).loc main_arg10)) := by
  refine (W2_arr m ρ c 5).trans ((Region0.arr_eq (V1 m ρ) c).trans ?_)
  show relu (lin (N := 50000) (D := 256) (E := 32) (V1 m ρ c main_v24) (V1 m ρ c main_arg0) (V1 m ρ c main_arg8) (V1 m ρ c main_arg9) (V1 m ρ c main_v25)) = _
  rw [V1_mean, V1_arg0, V1_arg8, V1_arg9, V1_bias]
  rfl

/-- After the second region the result buffer holds `out` of the arguments. -/
theorem W4_out (c : Dev nD) :
    W4 m ρ c (Proc.devRef .tc main_v40)
      = out (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 5).trans ((Region1.arr_eq (V3 m ρ) c).trans ?_)
  show lsm (lin (N := 50000) (D := 32) (E := 40) (V3 m ρ c main_v38) (V3 m ρ c main_v26) (V3 m ρ c main_arg11) (V3 m ρ c main_arg12) (V3 m ρ c main_v39)) = _
  rw [V3_mean, V3_hidden, V3_arg11, V3_arg12, V3_bias, W2_hidden]
  rfl

/-- Every weakly fair execution of the kernel's program terminates, nothing faulting, with the result buffer at `out` of
    the argument arrays and the argument arrays as launched. -/
theorem run : θ_run defs (onTc (τ := τ) (main (F := Ideal))) ⟨m, fun _ => 0, ρ⟩ (fun r => ∀ c : Dev nD,
      r.2.mem ((c.tc : Thread nD τ).loc main_v40)
        = out (m ((c : Thread nD τ).loc main_arg0)) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W4_out m ρ c), (h c).2⟩) (Named.run_named m ρ)

end Cert.KernelIdeal.KValue

end
-- ==== Proof.LibTRefCasts.lean ====
/-
  Casts along an equation of types, as the typed references of a host program's module-local functions introduce them.

  A module-local function (an outlined `relu`, `log_softmax`, …) is stated over references that carry the type of the
  tensor they hold; a result of its operations is moved to the reference's own buffer type, and an operand back, along
  the reference's type equation (`TRef.toBuf`, `TRef.ofBuf`: both are `cast`s). Read off a run, the callee's values so come
  wrapped: every intermediate value in a round trip `ofBuf (toBuf v)`, the callee's arguments in one `ofBuf`, its result in
  one `toBuf`. These lemmas remove the wrappers WITHOUT asking whether the two types are definitionally equal — a question
  that, over buffer types whose index sets have millions of elements, is what makes `simp` with `cast_eq` or a closing
  `rfl` run out of memory or recursion depth:

  * `cast_cast_cancel`: a round trip along any two equations between the same two types is the identity (by `subst`);
    `TRef.ofBuf_toBuf` / `TRef.toBuf_ofBuf` are it for a typed reference. As `simp only` lemmas they match syntactically.
  * `cast_eq_of_heq`: `cast h a = b` follows from `HEq a b`; with `heq_of_eq` of a known equation for `a` this rewrites a
    single cast of an atom (a callee's argument read from the valuation before it), and applied to a goal `cast h X = Y`
    it leaves `X = Y` at the carried type (a callee's result).
-/
import Idealize.ShloMosaic.Lib.StableHlo

namespace Idealize.ShloMosaic.StableHlo

/-- A cast there and back, along ANY two equations between the two types, is the identity. -/
theorem cast_cast_cancel {α β : Sort _} (h₁ : β = α) (h₂ : α = β) (v : α) : cast h₁ (cast h₂ v) = v := by
  subst h₂; rfl

/-- A cast of `a` is `b` as soon as `a` and `b` are heterogeneously equal. -/
theorem cast_eq_of_heq {α β : Sort _} (h : α = β) (a : α) (b : β) (hab : HEq a b) : cast h a = b := by
  subst h; exact eq_of_heq hab

namespace TRef

variable {sig : RefSig} {T : BufTy} {Val : EltTy → Type}

/-- Contents moved to a typed reference's buffer type and back are the contents. -/
theorem ofBuf_toBuf (x : TRef sig T) (v : T.Contents Val) : x.ofBuf (x.toBuf v) = v :=
  cast_cast_cancel _ _ v

/-- Contents moved from a typed reference's buffer type and back are the contents. -/
theorem toBuf_ofBuf (x : TRef sig T) (v : x.ref.ty.Contents Val) : x.toBuf (x.ofBuf v) = v :=
  cast_cast_cancel _ _ v

/-- An operand read through a typed reference is what the buffer holds, given as contents at the carried type. -/
theorem ofBuf_eq_of_heq (x : TRef sig T) (v : x.ref.ty.Contents Val) (w : T.Contents Val) (h : HEq v w) : x.ofBuf v = w :=
  cast_eq_of_heq _ v w h

/-- A result written through a typed reference is the result, read as contents of the buffer. -/
theorem toBuf_eq_of_heq (x : TRef sig T) (v : T.Contents Val) (w : x.ref.ty.Contents Val) (h : HEq v w) : x.toBuf v = w :=
  cast_eq_of_heq _ v w h

end TRef

end Idealize.ShloMosaic.StableHlo
-- ==== Proof.RefStages.lean ====
/-
  The reference program's result, read off its run stretch by stretch. The program is one straight line of 152 host
  operations, and the composed term of its result repeats the logits four times and the hidden layer twice in each. Cut
  before and after each of the two inlined calls on the way to the result — the clamp that ends the hidden layer and the
  log-softmax that ends the program — each stretch is a short line over whatever the stretch before left (an arbitrary
  valuation `W`), and what it leaves in the one or two buffers the next stretch reads is a small term: the hidden layer
  before the clamp, of the arguments; its clamp; the logits, of the hidden layer and the arguments; their log-softmax.
  Composing the four gives the result buffer after the whole line as the last stage function of the argument arrays.
  (The stretches of the line that compute the two layers whose values nothing reads play no part: the fold passes over
  them.) An inlined call's values come wrapped in casts along its typed references' type equations; they are removed by
  the lemmas of LibTRefCasts.lean, which never ask whether two buffer types are definitionally equal.
-/
import proofs.«154788_j64845416235694_1_alg».proof.Proof.RefOps
import proofs.«154788_j64845416235694_1_alg».proof.Proof.RefRead
import proofs.«154788_j64845416235694_1_alg».proof.Proof.LibTRefCasts

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The first stretch: up to the hidden layer before its clamp -/

set_option maxHeartbeats 8000000 in
theorem stageA_pre (V : Valuation τ sig (Elt F)) :
    after (opsA (F := F)) V (Proc.devRef .tc main_v80) = val_main_v80 (F := F) (V (Proc.devRef .tc main_arg0)) (V (Proc.devRef .tc main_arg1)) (V (Proc.devRef .tc main_arg8)) (V (Proc.devRef .tc main_arg9)) (V (Proc.devRef .tc main_arg10)) := by
  after_results_simp
  rfl
set_option maxHeartbeats 8000000 in
theorem stageA_v1 (V : Valuation τ sig (Elt F)) :
    after (opsA (F := F)) V (Proc.devRef .tc main_v1) = val_main_v1 (F := F) (V (Proc.devRef .tc main_arg1)) := by
  after_results_simp
  rfl
set_option maxHeartbeats 8000000 in
theorem stageA_v3 (V : Valuation τ sig (Elt F)) :
    after (opsA (F := F)) V (Proc.devRef .tc main_v3) = val_main_v3 (F := F) (V (Proc.devRef .tc main_arg1)) := by
  after_results_simp
  rfl
set_option maxHeartbeats 8000000 in
theorem stageA_arg11 (V : Valuation τ sig (Elt F)) :
    after (opsA (F := F)) V (Proc.devRef .tc main_arg11) = V (Proc.devRef .tc main_arg11) := by
  after_results_simp
set_option maxHeartbeats 8000000 in
theorem stageA_arg12 (V : Valuation τ sig (Elt F)) :
    after (opsA (F := F)) V (Proc.devRef .tc main_arg12) = V (Proc.devRef .tc main_arg12) := by
  after_results_simp
set_option maxHeartbeats 8000000 in
theorem stageA_arg13 (V : Valuation τ sig (Elt F)) :
    after (opsA (F := F)) V (Proc.devRef .tc main_arg13) = V (Proc.devRef .tc main_arg13) := by
  after_results_simp

/-! ## The clamp: three operations of an inlined call -/

theorem stageR_hidden (W V : Valuation τ sig (Elt F))
    (h80 : W (Proc.devRef .tc main_v80) = val_main_v80 (F := F) (V (Proc.devRef .tc main_arg0)) (V (Proc.devRef .tc main_arg1)) (V (Proc.devRef .tc main_arg8)) (V (Proc.devRef .tc main_arg9)) (V (Proc.devRef .tc main_arg10))) :
    after (opsR (F := F)) W (Proc.devRef .tc main_v81) = val_main_v81 (F := F) (V (Proc.devRef .tc main_arg0)) (V (Proc.devRef .tc main_arg1)) (V (Proc.devRef .tc main_arg8)) (V (Proc.devRef .tc main_arg9)) (V (Proc.devRef .tc main_arg10)) := by
  after_results_simp
  simp only [TRef.ofBuf_toBuf]
  rw [TRef.ofBuf_eq_of_heq (TRef.of (T := ⟨S50000x32, .f32⟩) main_v80) _ _ (heq_of_eq h80)]
  refine TRef.toBuf_eq_of_heq _ _ _ (heq_of_eq ?_)
  rfl
theorem stageR_v1 (W : Valuation τ sig (Elt F)) :
    after (opsR (F := F)) W (Proc.devRef .tc main_v1) = W (Proc.devRef .tc main_v1) := by
  after_results_simp
theorem stageR_v3 (W : Valuation τ sig (Elt F)) :
    after (opsR (F := F)) W (Proc.devRef .tc main_v3) = W (Proc.devRef .tc main_v3) := by
  after_results_simp
theorem stageR_arg11 (W : Valuation τ sig (Elt F)) :
    after (opsR (F := F)) W (Proc.devRef .tc main_arg11) = W (Proc.devRef .tc main_arg11) := by
  after_results_simp
theorem stageR_arg12 (W : Valuation τ sig (Elt F)) :
    after (opsR (F := F)) W (Proc.devRef .tc main_arg12) = W (Proc.devRef .tc main_arg12) := by
  after_results_simp
theorem stageR_arg13 (W : Valuation τ sig (Elt F)) :
    after (opsR (F := F)) W (Proc.devRef .tc main_arg13) = W (Proc.devRef .tc main_arg13) := by
  after_results_simp

/-! ## From the hidden layer to the logits -/

theorem stageB_logits (W V : Valuation τ sig (Elt F))
    (h81 : W (Proc.devRef .tc main_v81) = val_main_v81 (F := F) (V (Proc.devRef .tc main_arg0)) (V (Proc.devRef .tc main_arg1)) (V (Proc.devRef .tc main_arg8)) (V (Proc.devRef .tc main_arg9)) (V (Proc.devRef .tc main_arg10)))
    (h1 : W (Proc.devRef .tc main_v1) = val_main_v1 (F := F) (V (Proc.devRef .tc main_arg1)))
    (h3 : W (Proc.devRef .tc main_v3) = val_main_v3 (F := F) (V (Proc.devRef .tc main_arg1)))
    (h11 : W (Proc.devRef .tc main_arg11) = V (Proc.devRef .tc main_arg11))
    (h12 : W (Proc.devRef .tc main_arg12) = V (Proc.devRef .tc main_arg12))
    (h13 : W (Proc.devRef .tc main_arg13) = V (Proc.devRef .tc main_arg13)) :
    after (opsB (F := F)) W (Proc.devRef .tc main_v106) = val_main_v106 (F := F) (V (Proc.devRef .tc main_arg0)) (V (Proc.devRef .tc main_arg1)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  after_results_simp
  rw [h81, h1, h3, h11, h12, h13]
  rfl

/-! ## The log-softmax: fifteen operations of an inlined call -/

theorem stageC_out (W V : Valuation τ sig (Elt F))
    (h106 : W (Proc.devRef .tc main_v106) = val_main_v106 (F := F) (V (Proc.devRef .tc main_arg0)) (V (Proc.devRef .tc main_arg1)) (V (Proc.devRef .tc main_arg8)) (V (Proc.devRef .tc main_arg9)) (V (Proc.devRef .tc main_arg10)) (V (Proc.devRef .tc main_arg11)) (V (Proc.devRef .tc main_arg12)) (V (Proc.devRef .tc main_arg13))) :
    after (opsC (F := F)) W (Proc.devRef .tc main_v107) = val_main_v107 (F := F) (V (Proc.devRef .tc main_arg0)) (V (Proc.devRef .tc main_arg1)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  after_results_simp
  simp only [TRef.ofBuf_toBuf]
  rw [TRef.ofBuf_eq_of_heq (TRef.of (T := ⟨S50000x40, .f32⟩) main_v106) _ _ (heq_of_eq h106)]
  refine TRef.toBuf_eq_of_heq _ _ _ (heq_of_eq ?_)
  rfl

/-- The result buffer after the whole line is the last stage function of the argument arrays. -/
theorem result_eq (V : Valuation τ sig (Elt F)) :
    after (ops (F := F)) V (Proc.devRef .tc main_v107) = val_main_v107 (F := F) (V (Proc.devRef .tc main_arg0)) (V (Proc.devRef .tc main_arg1)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_split, after_append, after_append, after_append]
  have h81 := stageR_hidden _ V (stageA_pre V)
  have h1 := (stageR_v1 (after (opsA (F := F)) V)).trans (stageA_v1 V)
  have h3 := (stageR_v3 (after (opsA (F := F)) V)).trans (stageA_v3 V)
  have h11 := (stageR_arg11 (after (opsA (F := F)) V)).trans (stageA_arg11 V)
  have h12 := (stageR_arg12 (after (opsA (F := F)) V)).trans (stageA_arg12 V)
  have h13 := (stageR_arg13 (after (opsA (F := F)) V)).trans (stageA_arg13 V)
  exact stageC_out _ V (stageB_logits _ V h81 h1 h3 h11 h12 h13)

variable (m : (ℓ : Loc nD τ sig) → Buf (Elt F) ℓ) (ρ : Dev nD → PrngReg)

/-- Every weakly fair execution of the reference terminates, nothing faulting, with the result buffer at the last stage
    function of the argument arrays and the argument arrays as launched. -/
theorem run : θ_run defs (onTc (τ := τ) (main (F := F))) ⟨m, fun _ => 0, ρ⟩ fun r => ∀ c : Dev nD,
      r.2.mem ((c.tc : Thread nD τ).loc main_v107)
        = val_main_v107 (F := F) (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (result_eq (launchContents m c)), (h c).2⟩) (ValueP.run m ρ)

end Cert.ReferenceIdeal.Stages

end
-- ==== Proof.RefBridge.lean ====
/-
  The reference program's stages in the vocabulary of `Cert.Sage`. The reference computes the neighbour mean by DIVIDING
  the aggregated rows by the in-degree (at least one) where the kernel's program multiplies by the reciprocal; on the
  extended reals the two are one function (`Cert.Sage.mul_recip_max_one`), whatever the entries — the aggregation and the
  in-degree themselves are the same terms in both programs, and nothing is asked of them. Its hidden layer is
  `relu (lin …)` and its result `lsm (lin …)`: a `dot_general` over one contracted axis is the plain sum, the bias is
  broadcast from a row, the host's max-reduction from −∞ is the row maximum (and one more `max` with −∞ changes nothing),
  and the host's sum from zero is the row sum.
-/
import proofs.«154788_j64845416235694_1_alg».proof.Proof.RefRead
import proofs.«154788_j64845416235694_1_alg».proof.Proof.HostK
import proofs.«154788_j64845416235694_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.Bridge

open Idealize.ShloMosaic Idealize.ShloMosaic.ValueIdx Cert.Sage

/-! ## A value per row, broadcast -/

/-- An [a] array broadcast to an [a, 1] column reads, at `(p, u)`, the array at `p`. -/
theorem bcVec {α : Type} {a : Nat} (h : (⟨1, ![a]⟩ : Shape).BroadcastsInDim ⟨2, ![a, 1]⟩ ![0])
    (v : (⟨1, ![a]⟩ : Shape).Idx → α) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- An [a, 1] column broadcast to [a, b] reads, at `(p, q)`, the column at row `p`. -/
theorem bcCol {α : Type} {a b : Nat} (h : (⟨2, ![a, 1]⟩ : Shape).BroadcastsInDim ⟨2, ![a, b]⟩ ![0, 1])
    (v : (⟨2, ![a, 1]⟩ : Shape).Idx → α) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else q.val
    rw [if_pos rfl]

/-- THE LAW BETWEEN THE TWO PROGRAMS, on arrays: rows times the broadcast reciprocal of `max n 1` are rows divided by the
    broadcast `max n 1`. -/
theorem recip_law {b : Nat} (A : FVec Ideal ⟨2, ![50000, b]⟩ .f32) (n one : FVec Ideal ⟨1, ![50000]⟩ .f32)
    (h1 h1' : (⟨2, ![50000, 1]⟩ : Shape).BroadcastsInDim ⟨2, ![50000, b]⟩ ![0, 1])
    (h2 h2' : (⟨1, ![50000]⟩ : Shape).BroadcastsInDim ⟨2, ![50000, 1]⟩ ![0])
    (hone : ∀ j, one j = Ideal.ofBits .f32 0x3F800000#32) :
    mulf A (broadcastInDim ⟨2, ![50000, b]⟩ ![0, 1] h1 (broadcastInDim ⟨2, ![50000, 1]⟩ ![0] h2 (Host.divf one (maximumf n one))))
      = Host.divf A (broadcastInDim ⟨2, ![50000, b]⟩ ![0, 1] h1' (broadcastInDim ⟨2, ![50000, 1]⟩ ![0] h2' (maximumf n one))) := by
  funext i
  obtain ⟨p, q, rfl⟩ : ∃ (p : Fin 50000) (q : Fin b), i = ix2 p q := ⟨i 0, i 1, eq_ix2 i⟩
  show A (ix2 p q) * broadcastInDim ⟨2, ![50000, b]⟩ ![0, 1] h1 (broadcastInDim ⟨2, ![50000, 1]⟩ ![0] h2 (Host.divf one (maximumf n one))) (ix2 p q)
    = Ideal.div (A (ix2 p q)) (broadcastInDim ⟨2, ![50000, b]⟩ ![0, 1] h1' (broadcastInDim ⟨2, ![50000, 1]⟩ ![0] h2' (maximumf n one)) (ix2 p q))
  rw [bcCol, bcVec, bcCol, bcVec]
  show A (ix2 p q) * Ideal.div (one (ix1 p)) (max (n (ix1 p)) (one (ix1 p))) = Ideal.div (A (ix2 p q)) (max (n (ix1 p)) (one (ix1 p)))
  rw [hone]
  exact mul_recip_max_one _ _

open Cert.ReferenceIdeal Cert.ReferenceIdeal.Gen Cert.ReferenceIdeal.ReadP

/-! ## The host's log-softmax around an array of logits -/

section Wrapper
variable {F : FTy → Type} [FloatOps F]

/-- The host's spelling of the row-wise log-softmax of `Z`. -/
def hostLsm (Z : (⟨S50000x40, .f32⟩ : BufTy).Contents (Elt F)) : (⟨S50000x40, .f32⟩ : BufTy).Contents (Elt F) :=
  subf (subf Z (broadcastInDim S50000x40 ![0, 1] bcast_S50000x1_S50000x40_0_1 (broadcastInDim S50000x1 ![0] bcast_S50000_S50000x1_0
      (maximumf (broadcastInDim S50000 ![] bcast_S_S50000 (constant S_ .f32 0xFF800000#32))
        (Host.reduce FloatOps.maximumf Z (constant S_ .f32 0xFF800000#32) reducesTo_S50000x40_S50000_d1 h_S_)))))
    (broadcastInDim S50000x40 ![0, 1] bcast_S50000x1_S50000x40_0_1 (Host.log (broadcastInDim S50000x1 ![0] bcast_S50000_S50000x1_0
      (Host.reduceAdd (Host.exp (subf Z (broadcastInDim S50000x40 ![0, 1] bcast_S50000x1_S50000x40_0_1 (broadcastInDim S50000x1 ![0] bcast_S50000_S50000x1_0
          (maximumf (broadcastInDim S50000 ![] bcast_S_S50000 (constant S_ .f32 0xFF800000#32))
            (Host.reduce FloatOps.maximumf Z (constant S_ .f32 0xFF800000#32) reducesTo_S50000x40_S50000_d1 h_S_))))))
        (constant S_ .f32 0x00000000#32) reducesTo_S50000x40_S50000_d1 h_S_))))

/-- The reference's result is that spelling around its logits. -/
theorem v107_wrap (x0 : (⟨S50000x256, .f32⟩ : BufTy).Contents (Elt F)) (x1 : (⟨S2x300000, .i32⟩ : BufTy).Contents (Elt F)) (x8 x9 : (⟨S256x32, .f32⟩ : BufTy).Contents (Elt F)) (x10 : (⟨S32, .f32⟩ : BufTy).Contents (Elt F)) (x11 x12 : (⟨S32x40, .f32⟩ : BufTy).Contents (Elt F)) (x13 : (⟨S40, .f32⟩ : BufTy).Contents (Elt F)) :
    val_main_v107 (F := F) x0 x1 x8 x9 x10 x11 x12 x13 = hostLsm (F := F) (val_main_v106 (F := F) x0 x1 x8 x9 x10 x11 x12 x13) := rfl

/-! ## The two programs' shared terms -/

theorem agg256_eq (x0 : (⟨S50000x256, .f32⟩ : BufTy).Contents (Elt F)) (x1 : (⟨S2x300000, .i32⟩ : BufTy).Contents (Elt F)) :
    val_main_v65 (F := F) x0 x1 = Cert.KernelIdeal.HostK.agg256 (F := F) x0 x1 := rfl
theorem cnt3_eq (x1 : (⟨S2x300000, .i32⟩ : BufTy).Contents (Elt F)) : val_main_v69 (F := F) x1 = Cert.KernelIdeal.HostK.cnt (F := F) x1 := rfl
theorem ones3_eq : val_main_v70 (F := F) = Cert.KernelIdeal.HostK.ones (F := F) := rfl
theorem agg32_eq (x0 : (⟨S50000x256, .f32⟩ : BufTy).Contents (Elt F)) (x1 : (⟨S2x300000, .i32⟩ : BufTy).Contents (Elt F)) (x8 x9 : (⟨S256x32, .f32⟩ : BufTy).Contents (Elt F)) (x10 : (⟨S32, .f32⟩ : BufTy).Contents (Elt F)) :
    val_main_v91 (F := F) x0 x1 x8 x9 x10 = Cert.KernelIdeal.HostK.agg32 (F := F) (val_main_v81 (F := F) x0 x1 x8 x9 x10) x1 := rfl
theorem cnt4_eq (x1 : (⟨S2x300000, .i32⟩ : BufTy).Contents (Elt F)) : val_main_v95 (F := F) x1 = Cert.KernelIdeal.HostK.cnt (F := F) x1 := rfl
theorem ones4_eq : val_main_v96 (F := F) = Cert.KernelIdeal.HostK.ones (F := F) := rfl

end Wrapper

/-! ## Reading the host's reductions over the lanes -/

/-- Dropping the lane axis of a [50000, 40] array leaves a [50000] array. -/
theorem hRed : S50000x40.Reduces [1] S50000 := by decide

theorem liftR (h : S50000x40.Reduces [1] S50000) (p : Fin 50000) (k : Fin 40) : h.lift (ix1 p) k = ix2 p k := by
  funext a; apply Fin.ext
  match a with
  | ⟨0, _⟩ => rfl
  | ⟨1, _⟩ => rfl

/-- The host's max-reduction over the lanes from −∞ is the row maximum. -/
theorem hostRowMax (Z : FVec Ideal S50000x40 .f32) (p : Fin 50000) :
    Host.reduce FloatOps.maximumf Z (constant (F := Ideal) S_ .f32 0xFF800000#32) reducesTo_S50000x40_S50000_d1 h_S_ (ix1 p)
      = rowMax (N := 50000) (E := 40) Z p := by
  rw [Host.reduce_eq_fold_single FloatOps.maximumf Z _ reducesTo_S50000x40_S50000_d1 hRed h_S_]
  unfold rowMax
  show (Finset.univ : Finset (Fin 40)).fold max (Ideal.ofBits .f32 0xFF800000#32) (fun k : Fin 40 => Z (hRed.lift (ix1 p) k)) = _
  exact congrArg (fun f => (Finset.univ : Finset (Fin 40)).fold max (Ideal.ofBits .f32 0xFF800000#32) f)
    (funext fun k => congrArg Z (liftR hRed p k))

/-- The host's sum over the lanes from zero is the row sum. -/
theorem hostRowSum (E : FVec Ideal S50000x40 .f32) (p : Fin 50000) :
    Host.reduceAdd E (constant (F := Ideal) S_ .f32 0x00000000#32) reducesTo_S50000x40_S50000_d1 h_S_ (ix1 p)
      = ∑ k : Fin 40, E (ix2 p k) := by
  simp only [Host.reduceAdd, Ideal.hostReduceAdd_def]
  rw [Ideal.hostReduceAdd_single reducesTo_S50000x40_S50000_d1 hRed]
  show Ideal.ofBits .f32 0x00000000#32 + ∑ k : Fin 40, E (hRed.lift (ix1 p) k) = _
  rw [zero_word_add]
  exact Finset.sum_congr rfl fun k _ => congrArg E (liftR hRed p k)

/-- The host's spelling is the row-wise log-softmax. -/
theorem hostLsm_eq (Z : FVec Ideal S50000x40 .f32) : hostLsm (F := Ideal) Z = lsm (N := 50000) (E := 40) Z := by
  funext i
  obtain ⟨p, q, rfl⟩ : ∃ (p : Fin 50000) (q : Fin 40), i = ix2 p q := ⟨i 0, i 1, eq_ix2 i⟩
  have hshift : ∀ k : Fin 40,
      subf Z (broadcastInDim S50000x40 ![0, 1] bcast_S50000x1_S50000x40_0_1 (broadcastInDim S50000x1 ![0] bcast_S50000_S50000x1_0
        (maximumf (broadcastInDim S50000 ![] bcast_S_S50000 (constant (F := Ideal) S_ .f32 0xFF800000#32))
          (Host.reduce FloatOps.maximumf Z (constant (F := Ideal) S_ .f32 0xFF800000#32) reducesTo_S50000x40_S50000_d1 h_S_)))) (ix2 p k)
        = Z (ix2 p k) - rowMax (N := 50000) (E := 40) Z p := fun k => by
    rw [subf_apply, bcCol, bcVec, maximumf_apply, hostRowMax]
    show Z (ix2 p k) - max (Ideal.ofBits .f32 0xFF800000#32) (rowMax (N := 50000) (E := 40) Z p) = _
    rw [max_negInf]
  have hsum : (∑ k : Fin 40, Host.exp (subf Z (broadcastInDim S50000x40 ![0, 1] bcast_S50000x1_S50000x40_0_1 (broadcastInDim S50000x1 ![0] bcast_S50000_S50000x1_0
          (maximumf (broadcastInDim S50000 ![] bcast_S_S50000 (constant (F := Ideal) S_ .f32 0xFF800000#32))
            (Host.reduce FloatOps.maximumf Z (constant (F := Ideal) S_ .f32 0xFF800000#32) reducesTo_S50000x40_S50000_d1 h_S_))))) (ix2 p k))
      = ∑ k : Fin 40, Ideal.exp (Z (ix2 p k) - rowMax (N := 50000) (E := 40) Z p) :=
    Finset.sum_congr rfl fun k _ => congrArg Ideal.exp (hshift k)
  unfold hostLsm
  rw [subf_apply, hshift, bcCol]
  rw [show ∀ (X : FVec Ideal S50000x1 .f32) (j : S50000x1.Idx), Host.log X j = Ideal.log (X j) from fun _ _ => rfl]
  rw [bcVec, hostRowSum, hsum]
  rfl

/-! ## The means -/

/-- The reference's neighbour mean of the node features is the kernel program's. -/
theorem mean256_eq (x0 : (⟨S50000x256, .f32⟩ : BufTy).Contents (Elt Ideal)) (x1 : (⟨S2x300000, .i32⟩ : BufTy).Contents (Elt Ideal)) :
    val_main_v74 (F := Ideal) x0 x1 = Cert.KernelIdeal.HostK.mean256 (F := Ideal) x0 x1 := by
  unfold val_main_v74 val_main_v73 val_main_v72 val_main_v71 Cert.KernelIdeal.HostK.mean256 Cert.KernelIdeal.HostK.invCol
  rw [agg256_eq, cnt3_eq, ones3_eq]
  exact (recip_law (b := 256) _ _ _ _ _ _ _ (fun j => rfl)).symm

/-- The reference's neighbour mean of its hidden layer is the kernel program's mean of the same array. -/
theorem mean32_eq (x0 : (⟨S50000x256, .f32⟩ : BufTy).Contents (Elt Ideal)) (x1 : (⟨S2x300000, .i32⟩ : BufTy).Contents (Elt Ideal)) (x8 x9 : (⟨S256x32, .f32⟩ : BufTy).Contents (Elt Ideal)) (x10 : (⟨S32, .f32⟩ : BufTy).Contents (Elt Ideal)) :
    val_main_v100 (F := Ideal) x0 x1 x8 x9 x10 = Cert.KernelIdeal.HostK.mean32 (F := Ideal) (val_main_v81 (F := Ideal) x0 x1 x8 x9 x10) x1 := by
  unfold val_main_v100 val_main_v99 val_main_v98 val_main_v97 Cert.KernelIdeal.HostK.mean32 Cert.KernelIdeal.HostK.invCol
  rw [agg32_eq, cnt4_eq, ones4_eq]
  exact (recip_law (b := 32) _ _ _ _ _ _ _ (fun j => rfl)).symm

/-! ## The layers -/

theorem lidx75 (i : S50000x32.Idx) (k : Fin 256) : lidx_main_v75 i k = ix2 (i 0 : Fin 50000) k :=
  funext fun a => by match a with | ⟨0, _⟩ => rfl | ⟨1, _⟩ => rfl
theorem ridx75 (i : S50000x32.Idx) (k : Fin 256) : ridx_main_v75 i k = ix2 k (i 1 : Fin 32) :=
  funext fun a => by match a with | ⟨0, _⟩ => rfl | ⟨1, _⟩ => rfl
theorem lidx76 (i : S50000x32.Idx) (k : Fin 256) : lidx_main_v76 i k = ix2 (i 0 : Fin 50000) k :=
  funext fun a => by match a with | ⟨0, _⟩ => rfl | ⟨1, _⟩ => rfl
theorem ridx76 (i : S50000x32.Idx) (k : Fin 256) : ridx_main_v76 i k = ix2 k (i 1 : Fin 32) :=
  funext fun a => by match a with | ⟨0, _⟩ => rfl | ⟨1, _⟩ => rfl
theorem idx79 (i : S50000x32.Idx) : idx_main_v79 i = ix2 (0 : Fin 1) (i 1 : Fin 32) :=
  funext fun a => by match a with | ⟨0, _⟩ => rfl | ⟨1, _⟩ => rfl
theorem lidx101 (i : S50000x40.Idx) (k : Fin 32) : lidx_main_v101 i k = ix2 (i 0 : Fin 50000) k :=
  funext fun a => by match a with | ⟨0, _⟩ => rfl | ⟨1, _⟩ => rfl
theorem ridx101 (i : S50000x40.Idx) (k : Fin 32) : ridx_main_v101 i k = ix2 k (i 1 : Fin 40) :=
  funext fun a => by match a with | ⟨0, _⟩ => rfl | ⟨1, _⟩ => rfl
theorem lidx102 (i : S50000x40.Idx) (k : Fin 32) : lidx_main_v102 i k = ix2 (i 0 : Fin 50000) k :=
  funext fun a => by match a with | ⟨0, _⟩ => rfl | ⟨1, _⟩ => rfl
theorem ridx102 (i : S50000x40.Idx) (k : Fin 32) : ridx_main_v102 i k = ix2 k (i 1 : Fin 40) :=
  funext fun a => by match a with | ⟨0, _⟩ => rfl | ⟨1, _⟩ => rfl
theorem idx105 (i : S50000x40.Idx) : idx_main_v105 i = ix2 (0 : Fin 1) (i 1 : Fin 40) :=
  funext fun a => by match a with | ⟨0, _⟩ => rfl | ⟨1, _⟩ => rfl

/-- The reference's hidden layer. -/
theorem hidden_eq (x0 : (⟨S50000x256, .f32⟩ : BufTy).Contents (Elt Ideal)) (x1 : (⟨S2x300000, .i32⟩ : BufTy).Contents (Elt Ideal)) (x8 x9 : (⟨S256x32, .f32⟩ : BufTy).Contents (Elt Ideal)) (x10 : (⟨S32, .f32⟩ : BufTy).Contents (Elt Ideal)) :
    val_main_v81 (F := Ideal) x0 x1 x8 x9 x10
      = relu (lin (N := 50000) (D := 256) (E := 32) (val_main_v74 (F := Ideal) x0 x1) x0 x8 x9 (val_main_v78 (F := Ideal) x10)) := by
  funext i
  rw [val_main_v81_apply, val_main_v80_apply, val_main_v77_apply, val_main_v75_apply, val_main_v76_apply, val_main_v79_apply,
    val_main_call2_v0_apply, val_main_call2_cst_apply]
  simp only [lidx75, ridx75, lidx76, ridx76, idx79]
  rfl

/-- The reference's logits. -/
theorem logits_eq (x0 : (⟨S50000x256, .f32⟩ : BufTy).Contents (Elt Ideal)) (x1 : (⟨S2x300000, .i32⟩ : BufTy).Contents (Elt Ideal)) (x8 x9 : (⟨S256x32, .f32⟩ : BufTy).Contents (Elt Ideal)) (x10 : (⟨S32, .f32⟩ : BufTy).Contents (Elt Ideal)) (x11 x12 : (⟨S32x40, .f32⟩ : BufTy).Contents (Elt Ideal)) (x13 : (⟨S40, .f32⟩ : BufTy).Contents (Elt Ideal)) :
    val_main_v106 (F := Ideal) x0 x1 x8 x9 x10 x11 x12 x13
      = lin (N := 50000) (D := 32) (E := 40) (val_main_v100 (F := Ideal) x0 x1 x8 x9 x10) (val_main_v81 (F := Ideal) x0 x1 x8 x9 x10) x11 x12 (val_main_v104 (F := Ideal) x13) := by
  funext i
  rw [val_main_v106_apply, val_main_v103_apply, val_main_v101_apply, val_main_v102_apply, val_main_v105_apply]
  simp only [lidx101, ridx101, lidx102, ridx102, idx105]
  rfl

/-- The reference's result. -/
theorem out_eq (x0 : (⟨S50000x256, .f32⟩ : BufTy).Contents (Elt Ideal)) (x1 : (⟨S2x300000, .i32⟩ : BufTy).Contents (Elt Ideal)) (x8 x9 : (⟨S256x32, .f32⟩ : BufTy).Contents (Elt Ideal)) (x10 : (⟨S32, .f32⟩ : BufTy).Contents (Elt Ideal)) (x11 x12 : (⟨S32x40, .f32⟩ : BufTy).Contents (Elt Ideal)) (x13 : (⟨S40, .f32⟩ : BufTy).Contents (Elt Ideal)) :
    val_main_v107 (F := Ideal) x0 x1 x8 x9 x10 x11 x12 x13
      = lsm (lin (N := 50000) (D := 32) (E := 40) (val_main_v100 (F := Ideal) x0 x1 x8 x9 x10) (val_main_v81 (F := Ideal) x0 x1 x8 x9 x10) x11 x12 (val_main_v104 (F := Ideal) x13)) := by
  rw [v107_wrap, hostLsm_eq, logits_eq]

end Cert.Bridge

end
-- ==== Proof.Join.lean ====
/-
  The two programs compute one function. With the argument arrays free, the reference's last stage is
  `lsm (lin (mean h) h Wl4 Wr4 b4)` over its hidden layer `h = relu (lin (mean x) x Wl3 Wr3 b3)`, and so is the kernel
  program's result: the means agree by the reciprocal law, and the bias rows agree because the kernel's program reshapes
  the bias vector to a row where the reference broadcasts it to one — entry `(0, j)` of either is entry `j` of the vector.
-/
import proofs.«154788_j64845416235694_1_alg».proof.Proof.KValue
import proofs.«154788_j64845416235694_1_alg».proof.Proof.RefBridge
import Idealize.ShloMosaic.Lib.ValueLayout

set_option maxRecDepth 16384

noncomputable section

namespace Cert.Join

open Idealize.ShloMosaic Idealize.ShloMosaic.ValueIdx Cert.Sage
open Cert.ReferenceIdeal Cert.ReferenceIdeal.Gen Cert.ReferenceIdeal.ReadP

/-- A bias vector broadcast to a row is the vector reshaped to a row (hidden layer). -/
theorem bias32_eq (x10 : (⟨S32, .f32⟩ : BufTy).Contents (Elt Ideal)) :
    val_main_v78 (F := Ideal) x10 = shapeCast Cert.KernelIdeal.S1x32 x10 Cert.KernelIdeal.Gen.shapeCasts_S32_S1x32 := by
  funext i
  obtain ⟨u, j, rfl⟩ : ∃ (u : Fin 1) (j : Fin 32), i = ix2 u j := ⟨i 0, i 1, eq_ix2 i⟩
  rw [val_main_v78_apply]
  refine Eq.trans ?_ (shapeCast_a_1a_apply (a := 32) x10 Cert.KernelIdeal.Gen.shapeCasts_S32_S1x32 u j).symm
  exact congrArg x10 (funext fun a => by match a with | ⟨0, _⟩ => rfl)

/-- The same for the output layer's bias. -/
theorem bias40_eq (x13 : (⟨S40, .f32⟩ : BufTy).Contents (Elt Ideal)) :
    val_main_v104 (F := Ideal) x13 = shapeCast Cert.KernelIdeal.S1x40 x13 Cert.KernelIdeal.Gen.shapeCasts_S40_S1x40 := by
  funext i
  obtain ⟨u, j, rfl⟩ : ∃ (u : Fin 1) (j : Fin 40), i = ix2 u j := ⟨i 0, i 1, eq_ix2 i⟩
  rw [val_main_v104_apply]
  refine Eq.trans ?_ (shapeCast_a_1a_apply (a := 40) x13 Cert.KernelIdeal.Gen.shapeCasts_S40_S1x40 u j).symm
  exact congrArg x13 (funext fun a => by match a with | ⟨0, _⟩ => rfl)

/-- The reference's hidden layer is the kernel program's. -/
theorem hidden_eq (x0 : (⟨S50000x256, .f32⟩ : BufTy).Contents (Elt Ideal)) (x1 : (⟨S2x300000, .i32⟩ : BufTy).Contents (Elt Ideal)) (x8 x9 : (⟨S256x32, .f32⟩ : BufTy).Contents (Elt Ideal)) (x10 : (⟨S32, .f32⟩ : BufTy).Contents (Elt Ideal)) :
    val_main_v81 (F := Ideal) x0 x1 x8 x9 x10 = Cert.KernelIdeal.KValue.hidden x0 x1 x8 x9 x10 := by
  rw [Cert.Bridge.hidden_eq, Cert.Bridge.mean256_eq, bias32_eq]
  rfl

/-- THE VALUE EQUATION: the reference's result is the kernel program's, as functions of the argument arrays. -/
theorem value_eq (x0 : (⟨S50000x256, .f32⟩ : BufTy).Contents (Elt Ideal)) (x1 : (⟨S2x300000, .i32⟩ : BufTy).Contents (Elt Ideal)) (x8 x9 : (⟨S256x32, .f32⟩ : BufTy).Contents (Elt Ideal)) (x10 : (⟨S32, .f32⟩ : BufTy).Contents (Elt Ideal)) (x11 x12 : (⟨S32x40, .f32⟩ : BufTy).Contents (Elt Ideal)) (x13 : (⟨S40, .f32⟩ : BufTy).Contents (Elt Ideal)) :
    val_main_v107 (F := Ideal) x0 x1 x8 x9 x10 x11 x12 x13 = Cert.KernelIdeal.KValue.out x0 x1 x8 x9 x10 x11 x12 x13 := by
  rw [Cert.Bridge.out_eq, Cert.Bridge.mean32_eq, hidden_eq, bias40_eq]
  rfl

end Cert.Join

end
-- ==== Proof.lean ====
/-
  The certificate of a two-layer graph network's last two layers. The kernel's program aggregates each node's
  neighbours' features on the host (a gather along the edges' sources, a scatter-sum into their destinations, times the
  reciprocal in-degree), computes the hidden layer `relu (mean x · Wl3 + x · Wr3 + b3)` in a first kernel region tiled by
  rows, aggregates the hidden layer the same way, and computes `log_softmax (mean h · Wl4 + h · Wr4 + b4)` in a second
  region tiled by rows. The reference does all of it on the host, dividing by the in-degree, and also computes two
  layers whose values nothing reads.

  At the extended reals the two agree for every input: the gathers and scatter-sums are the same terms of the same index
  columns in both programs; `a * (1 / max n 1) = a / max n 1` because `max n 1` is never zero; a matrix product into a
  zero accumulator and the host's contraction are the same sum; a tile of rows of a row-wise function of whole arrays is
  the function of the tile; and −∞ and the zero word are units of `max` and `+`. No finiteness of the inputs is used.

  The frames of the two kernel programs are the generated frame certificates; the reference's is its run with the result
  dropped; the ideal pass rewrote nothing, so `preserves` asks nothing.
-/
import proofs.«154788_j64845416235694_1_alg».proof.Defs
import proofs.«154788_j64845416235694_1_alg».proof.Proof.Gen.Kernel
import proofs.«154788_j64845416235694_1_alg».proof.Proof.Gen.Kernel.Skeleton
import proofs.«154788_j64845416235694_1_alg».proof.Proof.Gen.Kernel.Launch
import proofs.«154788_j64845416235694_1_alg».proof.Proof.Gen.Kernel.Points
import proofs.«154788_j64845416235694_1_alg».proof.Proof.Gen.Kernel.Frame
import proofs.«154788_j64845416235694_1_alg».proof.Proof.Gen.KernelIdeal
import proofs.«154788_j64845416235694_1_alg».proof.Proof.Gen.KernelIdeal.Skeleton
import proofs.«154788_j64845416235694_1_alg».proof.Proof.Gen.KernelIdeal.Launch
import proofs.«154788_j64845416235694_1_alg».proof.Proof.Gen.KernelIdeal.Points
import proofs.«154788_j64845416235694_1_alg».proof.Proof.Gen.KernelIdeal.Frame
import proofs.«154788_j64845416235694_1_alg».proof.Proof.Gen.ReferenceIdeal
import proofs.«154788_j64845416235694_1_alg».proof.Proof.Gen.Pre_finite_inputs
import proofs.«154788_j64845416235694_1_alg».proof.Proof.KValue
import proofs.«154788_j64845416235694_1_alg».proof.Proof.RefStages
import proofs.«154788_j64845416235694_1_alg».proof.Proof.Join
import Idealize.ShloMosaic.Adequacy
import Idealize.ShloMosaic.Init

set_option maxRecDepth 16384

noncomputable section

namespace Cert.Proof

open Idealize.ShloMosaic Idealize.SL.Sem

section Claims

attribute [local instance] Cert.Kernel.Gen.facts Cert.KernelIdeal.Gen.facts Cert.ReferenceIdeal.Gen.facts Cert.Pre_finite_inputs.Gen.facts

/-- The kernel's program as printed runs and leaves its arguments: the generated frame certificate. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference runs and leaves its arguments: its run, the result dropped. -/
theorem frame_ri : Cert.frame_ReferenceIdeal := fun m ρ _ =>
  (θ_run Cert.ReferenceIdeal.defs _ _).mono (fun _ h c => (h c).2) (Cert.ReferenceIdeal.Stages.run (F := Ideal) m ρ)
/-- The ideal pass rewrote nothing. -/
theorem preserves : Cert.preserves_Kernel_KernelIdeal := trivial
/-- From memories agreeing on the arguments the two idealized programs end with one result: each run ends at its own
    function of its argument arrays, the arguments agree, and the two functions are one (`Cert.Join.value_eq`). -/
theorem algebraic : Cert.algebraic_KernelIdeal_ReferenceIdeal := by
  intro m ρ m' ρ' _ hagree
  refine ⟨fun c => Cert.KernelIdeal.KValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.KValue.run m ρ, ?_⟩
  refine (θ_run Cert.ReferenceIdeal.defs _ _).mono (fun _ h c => ⟨(h c).1.trans ?_, (h c).2⟩)
    (Cert.ReferenceIdeal.Stages.run (F := Ideal) m' ρ')
  obtain ⟨h0, h1, h2, h3, h4, h5, h6, h7, h8, h9, h10, h11, h12, h13⟩ := hagree c
  rw [h0, h1, h8, h9, h10, h11, h12, h13]
  exact Cert.Join.value_eq _ _ _ _ _ _ _ _

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
